-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S100000 : Shape := ⟨1, ![100000]⟩
abbrev S50000 : Shape := ⟨1, ![50000]⟩
abbrev S2000000 : Shape := ⟨1, ![2000000]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S100000 : S_.BroadcastsInDim S100000 (![] : Fin 0 → Fin S100000.rank)
  reducesTo_S100000_S_d0 : S100000.ReducesTo [0] S_
  bcast_S_S50000 : S_.BroadcastsInDim S50000 (![] : Fin 0 → Fin S50000.rank)
  reducesTo_S50000_S_d0 : S50000.ReducesTo [0] S_

variable [Facts]

def fn_part1 {F : FTy → Type} [FloatOps F] (main_arg2 : FVec F S100000 .f32) (main_arg3 : FVec F S50000 .f32) (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  let main_cst_6 : FVec F S_ .f32 := constant S_ .f32 0x00000000#32
  let main_v19 : FVec F S100000 .f32 := broadcastInDim S100000 ![] bcast_S_S100000 main_cst_6
  let main_v20 : IVec S100000 1 := cmpf .oge main_arg2 main_v19
  let main_c_7 : IVec S_ 1 := constantI S_ 1 1#1
  let main_v21 : IVec S_ 1 := (fun x v => Host.reduce IntOp.andi x v reducesTo_S100000_S_d0 h_S_) main_v20 main_c_7
  let main_v22 : IVec S_ 1 := andi main_v18 main_v21
  let main_cst_8 : FVec F S_ .f32 := constant S_ .f32 0x00000000#32
  let main_v23 : FVec F S50000 .f32 := broadcastInDim S50000 ![] bcast_S_S50000 main_cst_8
  let main_v24 : IVec S50000 1 := cmpf .oge main_arg3 main_v23
  let main_c_9 : IVec S_ 1 := constantI S_ 1 1#1
  let main_v25 : IVec S_ 1 := (fun x v => Host.reduce IntOp.andi x v reducesTo_S50000_S_d0 h_S_) main_v24 main_c_9
  let main_v26 : IVec S_ 1 := andi main_v22 main_v25
  main_v26

def fn {F : FTy → Type} [FloatOps F] (main_arg0 : FVec F S150000x64 .f32) (main_arg1 : FVec F S100000 .f32) (main_arg2 : FVec F S100000 .f32) (main_arg3 : FVec F S50000 .f32) (main_arg4 : IVec S2000000 32) (main_arg5 : IVec S2000000 32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S100000 .f32 := Host.absf main_arg1
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S50000 .f32 := Host.absf main_arg3
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_arg2 main_arg3 main_v13 main_v16
-- ==== Kernel.lean ====
abbrev S150000x64 : Shape := ⟨2, ![150000, 64]⟩
abbrev S100000 : Shape := ⟨1, ![100000]⟩
abbrev S50000 : Shape := ⟨1, ![50000]⟩
abbrev S2000000 : Shape := ⟨1, ![2000000]⟩
abbrev S2000x64 : Shape := ⟨2, ![2000, 64]⟩
abbrev S2000 : Shape := ⟨1, ![2000]⟩
abbrev S2000x1 : Shape := ⟨2, ![2000, 1]⟩
abbrev S100000x64 : Shape := ⟨2, ![100000, 64]⟩
abbrev S50000x64 : Shape := ⟨2, ![50000, 64]⟩
abbrev S_ : Shape := ⟨0, ![]⟩
abbrev S2000000x1 : Shape := ⟨2, ![2000000, 1]⟩
abbrev S2000000x64 : Shape := ⟨2, ![2000000, 64]⟩
abbrev S2000000x2 : Shape := ⟨2, ![2000000, 2]⟩
abbrev S5000x64 : Shape := ⟨2, ![5000, 64]⟩
abbrev S5000x2 : Shape := ⟨2, ![5000, 2]⟩
abbrev S5000x1 : Shape := ⟨2, ![5000, 1]⟩
abbrev S5000 : Shape := ⟨1, ![5000]⟩

abbrev nBuf : Space → Nat
  | .hbm => 94
  | .vmem => 18
  | .smem => 0
  | _ => 0

abbrev bufTy : (tb : Table) → Fin (tcTables nBuf tb) → BufTy
  | .hbm, ⟨0, _⟩ => ⟨S150000x64, .f32⟩
  | .hbm, ⟨1, _⟩ => ⟨S100000, .f32⟩
  | .hbm, ⟨2, _⟩ => ⟨S100000, .f32⟩
  | .hbm, ⟨3, _⟩ => ⟨S50000, .f32⟩
  | .hbm, ⟨4, _⟩ => ⟨S2000000, .i32⟩
  | .hbm, ⟨5, _⟩ => ⟨S2000000, .i32⟩
  | .hbm, ⟨6, _⟩ => ⟨S150000x64, .f32⟩
  | .hbm, ⟨7, _⟩ => ⟨S100000x64, .f32⟩
  | .hbm, ⟨8, _⟩ => ⟨S50000x64, .f32⟩
  | .hbm, ⟨9, _⟩ => ⟨S100000x64, .f32⟩
  | .hbm, ⟨10, _⟩ => ⟨S50000x64, .f32⟩
  | .hbm, ⟨11, _⟩ => ⟨S_, .i32⟩
  | .hbm, ⟨12, _⟩ => ⟨S2000000, .i32⟩
  | .hbm, ⟨13, _⟩ => ⟨S2000000, .i1⟩
  | .hbm, ⟨14, _⟩ => ⟨S_, .i32⟩
  | .hbm, ⟨15, _⟩ => ⟨S2000000, .i32⟩
  | .hbm, ⟨16, _⟩ => ⟨S2000000, .i32⟩
  | .hbm, ⟨17, _⟩ => ⟨S2000000, .i32⟩
  | .hbm, ⟨18, _⟩ => ⟨S2000000x1, .i32⟩
  | .hbm, ⟨19, _⟩ => ⟨S2000000x64, .f32⟩
  | .hbm, ⟨20, _⟩ => ⟨S_, .i32⟩
  | .hbm, ⟨21, _⟩ => ⟨S2000000, .i32⟩
  | .hbm, ⟨22, _⟩ => ⟨S2000000, .i1⟩
  | .hbm, ⟨23, _⟩ => ⟨S_, .i32⟩
  | .hbm, ⟨24, _⟩ => ⟨S2000000, .i32⟩
  | .hbm, ⟨25, _⟩ => ⟨S2000000, .i32⟩
  | .hbm, ⟨26, _⟩ => ⟨S2000000, .i32⟩
  | .hbm, ⟨27, _⟩ => ⟨S2000000x1, .i32⟩
  | .hbm, ⟨28, _⟩ => ⟨S2000000x64, .f32⟩
  | .hbm, ⟨29, _⟩ => ⟨S_, .i32⟩
  | .hbm, ⟨30, _⟩ => ⟨S2000000, .i32⟩
  | .hbm, ⟨31, _⟩ => ⟨S2000000, .i1⟩
  | .hbm, ⟨32, _⟩ => ⟨S_, .i32⟩
  | .hbm, ⟨33, _⟩ => ⟨S2000000, .i32⟩
  | .hbm, ⟨34, _⟩ => ⟨S2000000, .i32⟩
  | .hbm, ⟨35, _⟩ => ⟨S2000000, .i32⟩
  | .hbm, ⟨36, _⟩ => ⟨S2000000x1, .i32⟩
  | .hbm, ⟨37, _⟩ => ⟨S2000000x64, .f32⟩
  | .hbm, ⟨38, _⟩ => ⟨S_, .i32⟩
  | .hbm, ⟨39, _⟩ => ⟨S2000000, .i32⟩
  | .hbm, ⟨40, _⟩ => ⟨S2000000, .i1⟩
  | .hbm, ⟨41, _⟩ => ⟨S_, .i32⟩
  | .hbm, ⟨42, _⟩ => ⟨S2000000, .i32⟩
  | .hbm, ⟨43, _⟩ => ⟨S2000000, .i32⟩
  | .hbm, ⟨44, _⟩ => ⟨S2000000, .i32⟩
  | .hbm, ⟨45, _⟩ => ⟨S2000000x1, .i32⟩
  | .hbm, ⟨46, _⟩ => ⟨S2000000x64, .f32⟩
  | .hbm, ⟨47, _⟩ => ⟨S_, .i32⟩
  | .hbm, ⟨48, _⟩ => ⟨S2000000, .i32⟩
  | .hbm, ⟨49, _⟩ => ⟨S2000000, .i1⟩
  | .hbm, ⟨50, _⟩ => ⟨S_, .i32⟩
  | .hbm, ⟨51, _⟩ => ⟨S2000000, .i32⟩
  | .hbm, ⟨52, _⟩ => ⟨S2000000, .i32⟩
  | .hbm, ⟨53, _⟩ => ⟨S2000000, .i32⟩
  | .hbm, ⟨54, _⟩ => ⟨S2000000x1, .i32⟩
  | .hbm, ⟨55, _⟩ => ⟨S2000000, .f32⟩
  | .hbm, ⟨56, _⟩ => ⟨S_, .i32⟩
  | .hbm, ⟨57, _⟩ => ⟨S2000000, .i32⟩
  | .hbm, ⟨58, _⟩ => ⟨S2000000, .i1⟩
  | .hbm, ⟨59, _⟩ => ⟨S_, .i32⟩
  | .hbm, ⟨60, _⟩ => ⟨S2000000, .i32⟩
  | .hbm, ⟨61, _⟩ => ⟨S2000000, .i32⟩
  | .hbm, ⟨62, _⟩ => ⟨S2000000, .i32⟩
  | .hbm, ⟨63, _⟩ => ⟨S2000000x1, .i32⟩
  | .hbm, ⟨64, _⟩ => ⟨S2000000, .f32⟩
  | .hbm, ⟨65, _⟩ => ⟨S_, .i32⟩
  | .hbm, ⟨66, _⟩ => ⟨S2000000, .i32⟩
  | .hbm, ⟨67, _⟩ => ⟨S2000000, .i1⟩
  | .hbm, ⟨68, _⟩ => ⟨S_, .i32⟩
  | .hbm, ⟨69, _⟩ => ⟨S2000000, .i32⟩
  | .hbm, ⟨70, _⟩ => ⟨S2000000, .i32⟩
  | .hbm, ⟨71, _⟩ => ⟨S2000000, .i32⟩
  | .hbm, ⟨72, _⟩ => ⟨S2000000x1, .i32⟩
  | .hbm, ⟨73, _⟩ => ⟨S2000000, .f32⟩
  | .hbm, ⟨74, _⟩ => ⟨S2000000, .f32⟩
  | .hbm, ⟨75, _⟩ => ⟨S2000000, .f32⟩
  | .hbm, ⟨76, _⟩ => ⟨S2000000, .f32⟩
  | .hbm, ⟨77, _⟩ => ⟨S_, .f32⟩
  | .hbm, ⟨78, _⟩ => ⟨S2000000, .f32⟩
  | .hbm, ⟨79, _⟩ => ⟨S2000000, .f32⟩
  | .hbm, ⟨80, _⟩ => ⟨S2000000x1, .f32⟩
  | .hbm, ⟨81, _⟩ => ⟨S2000000x1, .f32⟩
  | .hbm, ⟨82, _⟩ => ⟨S2000000x2, .f32⟩
  | .hbm, ⟨83, _⟩ => ⟨S2000000x64, .f32⟩
  | .hbm, ⟨84, _⟩ => ⟨S2000000x64, .f32⟩
  | .hbm, ⟨85, _⟩ => ⟨S_, .f32⟩
  | .hbm, ⟨86, _⟩ => ⟨S100000x64, .f32⟩
  | .hbm, ⟨87, _⟩ => ⟨S2000000x1, .i32⟩
  | .hbm, ⟨88, _⟩ => ⟨S100000x64, .f32⟩
  | .hbm, ⟨89, _⟩ => ⟨S_, .f32⟩
  | .hbm, ⟨90, _⟩ => ⟨S50000x64, .f32⟩
  | .hbm, ⟨91, _⟩ => ⟨S2000000x1, .i32⟩
  | .hbm, ⟨92, _⟩ => ⟨S50000x64, .f32⟩
  | .hbm, ⟨93, _⟩ => ⟨S150000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x2, .f32⟩
  | .local _ .vmem, ⟨13, _⟩ => ⟨S5000x2, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_7 : Ref sig .tc := ⟨.hbm, 47, rfl⟩
abbrev main_v33 : Ref sig .tc := ⟨.hbm, 48, rfl⟩
abbrev main_v34 : Ref sig .tc := ⟨.hbm, 49, rfl⟩
abbrev main_c_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_9 : Ref sig .tc := ⟨.hbm, 56, rfl⟩
abbrev main_v40 : Ref sig .tc := ⟨.hbm, 57, rfl⟩
abbrev main_v41 : Ref sig .tc := ⟨.hbm, 58, rfl⟩
abbrev main_c_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_11 : Ref sig .tc := ⟨.hbm, 65, rfl⟩
abbrev main_v47 : Ref sig .tc := ⟨.hbm, 66, rfl⟩
abbrev main_v48 : Ref sig .tc := ⟨.hbm, 67, rfl⟩
abbrev main_c_12 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62_0 : Ref sig .tc := ⟨.hbm, 83, rfl⟩
abbrev main_v62_1 : Ref sig .tc := ⟨.hbm, 84, rfl⟩
abbrev main_cst_13 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_14 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S2000x64_S2000x64_0_0 : ∀ a, (![0, 0] : Fin 2 → Nat) a + S2000x64.size a ≤ S2000x64.size a
  h_S2000x64 : 0 < S2000x64.numel
  reduces_S2000x64_S2000 : S2000x64.Reduces [1] S2000
  shapeCasts_S2000_S2000x1 : S2000.ShapeCasts S2000x1
  broadcasts_S2000x1_S2000x64 : S2000x1.Broadcasts S2000x64
  slices_S150000x64_S100000x64_0_0 : S150000x64.Slices ![0, 0] S100000x64
  slices_S150000x64_S50000x64_100000_0 : S150000x64.Slices ![100000, 0] S50000x64
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  slices_S5000x2_o0_0_S5000x1 : S5000x2.Slices ![0, 0] S5000x1
  slices_S5000x2_o0_1_S5000x1 : S5000x2.Slices ![0, 1] S5000x1
  reduces_S5000x64_S5000 : S5000x64.Reduces [1] S5000
  shapeCasts_S5000_S5000x1 : S5000.ShapeCasts S5000x1
  broadcasts_S5000x1_S5000x64 : S5000x1.Broadcasts S5000x64
  bcast_S_S100000x64 : S_.BroadcastsInDim S100000x64 (![] : Fin 0 → Fin S100000x64.rank)
  bcast_S_S50000x64 : S_.BroadcastsInDim S50000x64 (![] : Fin 0 → Fin S50000x64.rank)
  concatenates_S100000x64_S50000x64_S150000x64_d0 : Shape.Concatenates [S100000x64, S50000x64] S150000x64 0
  gather_S100000x64_S2000000x1_S2000000x64_1_0_n_n_0_1_164_wf : GatherDims.WF S100000x64 S2000000x1 S2000000x64 [1] [0] [] [0] [] 1 ![1, 64]
  gather_S50000x64_S2000000x1_S2000000x64_1_0_n_n_0_1_164_wf : GatherDims.WF S50000x64 S2000000x1 S2000000x64 [1] [0] [] [0] [] 1 ![1, 64]
  gather_S100000_S2000000x1_S2000000_n_0_n_n_0_1_1_wf : GatherDims.WF S100000 S2000000x1 S2000000 [] [0] [] [0] [] 1 ![1]
  gather_S50000_S2000000x1_S2000000_n_0_n_n_0_1_1_wf : GatherDims.WF S50000 S2000000x1 S2000000 [] [0] [] [0] [] 1 ![1]
  scatter_S100000x64_S2000000x1_S2000000x64_1_0_0_1_wf : ScatterDims.WF S100000x64 S2000000x1 S2000000x64 [1] [0] [0] 1
  scatter_S50000x64_S2000000x1_S2000000x64_1_0_0_1_wf : ScatterDims.WF S50000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S150000x64.size a
  hwx0_0 : ∀ i : grid0.Coords, EltTy.bits .f32 = 32 ∨ (Rect.block (s := S150000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S150000x64.size a
  hwx0_1 : ∀ i : grid0.Coords, EltTy.bits .f32 = 32 ∨ (Rect.block (s := S150000x64) S2000x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S2000000x64.size a
  hwx1_0 : ∀ i : grid1.Coords, EltTy.bits .f32 = 32 ∨ (Rect.block (s := S2000000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S2000000x64.size a
  hwx1_1 : ∀ i : grid1.Coords, EltTy.bits .f32 = 32 ∨ (Rect.block (s := S2000000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S2000000x64.size a
  hwx1_2 : ∀ i : grid1.Coords, EltTy.bits .f32 = 32 ∨ (Rect.block (s := S2000000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S2000000x64.size a
  hwx1_3 : ∀ i : grid1.Coords, EltTy.bits .f32 = 32 ∨ (Rect.block (s := S2000000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x2.size a ≤ S2000000x2.size a
  hwx1_4 : ∀ i : grid1.Coords, EltTy.bits .f32 = 32 ∨ (Rect.block (s := S2000000x2) S5000x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S2000000x64.size a
  hwx1_5 : ∀ i : grid1.Coords, EltTy.bits .f32 = 32 ∨ (Rect.block (s := S2000000x64) S5000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S2000000x64.size a
  hwx1_6 : ∀ i : grid1.Coords, EltTy.bits .f32 = 32 ∨ (Rect.block (s := S2000000x64) S5000x64.size (cc1_transform_6 i) (hinb1_6 i)).WholeWords (EltTy.packing .f32)

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def gather_S50000_S2000000x1_S2000000_n_0_n_n_0_1_1 : GatherDims S50000 S2000000x1 S2000000 where
  offsetDims := []
  collapsedSliceDims := [0]
  operandBatchingDims := []
  startIndicesBatchingDims := []
  startIndexMap := [0]
  indexVectorDim := 1
  sliceSizes := ![1]
  wf := gather_S50000_S2000000x1_S2000000_n_0_n_n_0_1_1_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v11) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v61) S5000x2.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v62_0) S5000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v62_1) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S150000x64 : Shape := ⟨2, ![150000, 64]⟩
abbrev S100000 : Shape := ⟨1, ![100000]⟩
abbrev S50000 : Shape := ⟨1, ![50000]⟩
abbrev S2000000 : Shape := ⟨1, ![2000000]⟩
abbrev S100000x64 : Shape := ⟨2, ![100000, 64]⟩
abbrev S50000x64 : Shape := ⟨2, ![50000, 64]⟩
abbrev S_ : Shape := ⟨0, ![]⟩
abbrev S150000 : Shape := ⟨1, ![150000]⟩
abbrev S150000x1 : Shape := ⟨2, ![150000, 1]⟩
abbrev S2000000x1 : Shape := ⟨2, ![2000000, 1]⟩
abbrev S2000000x64 : Shape := ⟨2, ![2000000, 64]⟩

abbrev nBuf : Space → Nat
  | .hbm => 120
  | .vmem => 0
  | .smem => 0
  | _ => 0

abbrev bufTy : (tb : Table) → Fin (tcTables nBuf tb) → BufTy
  | .hbm, ⟨0, _⟩ => ⟨S150000x64, .f32⟩
  | .hbm, ⟨1, _⟩ => ⟨S100000, .f32⟩
  | .hbm, ⟨2, _⟩ => ⟨S100000, .f32⟩
  | .hbm, ⟨3, _⟩ => ⟨S50000, .f32⟩
  | .hbm, ⟨4, _⟩ => ⟨S2000000, .i32⟩
  | .hbm, ⟨5, _⟩ => ⟨S2000000, .i32⟩
  | .hbm, ⟨6, _⟩ => ⟨S100000x64, .f32⟩
  | .hbm, ⟨7, _⟩ => ⟨S50000x64, .f32⟩
  | .hbm, ⟨8, _⟩ => ⟨S150000x64, .f32⟩
  | .hbm, ⟨9, _⟩ => ⟨S_, .f32⟩
  | .hbm, ⟨10, _⟩ => ⟨S150000, .f32⟩
  | .hbm, ⟨11, _⟩ => ⟨S150000x1, .f32⟩
  | .hbm, ⟨12, _⟩ => ⟨S150000x1, .f32⟩
  | .hbm, ⟨13, _⟩ => ⟨S_, .f32⟩
  | .hbm, ⟨14, _⟩ => ⟨S150000x1, .f32⟩
  | .hbm, ⟨15, _⟩ => ⟨S150000x1, .f32⟩
  | .hbm, ⟨16, _⟩ => ⟨S150000x64, .f32⟩
  | .hbm, ⟨17, _⟩ => ⟨S150000x64, .f32⟩
  | .hbm, ⟨18, _⟩ => ⟨S100000x64, .f32⟩
  | .hbm, ⟨19, _⟩ => ⟨S50000x64, .f32⟩
  | .hbm, ⟨20, _⟩ => ⟨S_, .i32⟩
  | .hbm, ⟨21, _⟩ => ⟨S2000000, .i32⟩
  | .hbm, ⟨22, _⟩ => ⟨S2000000, .i1⟩
  | .hbm, ⟨23, _⟩ => ⟨S_, .i32⟩
  | .hbm, ⟨24, _⟩ => ⟨S2000000, .i32⟩
  | .hbm, ⟨25, _⟩ => ⟨S2000000, .i32⟩
  | .hbm, ⟨26, _⟩ => ⟨S2000000, .i32⟩
  | .hbm, ⟨27, _⟩ => ⟨S2000000x1, .i32⟩
  | .hbm, ⟨28, _⟩ => ⟨S2000000x64, .f32⟩
  | .hbm, ⟨29, _⟩ => ⟨S_, .i32⟩
  | .hbm, ⟨30, _⟩ => ⟨S2000000, .i32⟩
  | .hbm, ⟨31, _⟩ => ⟨S2000000, .i1⟩
  | .hbm, ⟨32, _⟩ => ⟨S_, .i32⟩
  | .hbm, ⟨33, _⟩ => ⟨S2000000, .i32⟩
  | .hbm, ⟨34, _⟩ => ⟨S2000000, .i32⟩
  | .hbm, ⟨35, _⟩ => ⟨S2000000, .i32⟩
  | .hbm, ⟨36, _⟩ => ⟨S2000000x1, .i32⟩
  | .hbm, ⟨37, _⟩ => ⟨S2000000x64, .f32⟩
  | .hbm, ⟨38, _⟩ => ⟨S2000000x64, .f32⟩
  | .hbm, ⟨39, _⟩ => ⟨S_, .f32⟩
  | .hbm, ⟨40, _⟩ => ⟨S2000000, .f32⟩
  | .hbm, ⟨41, _⟩ => ⟨S_, .i32⟩
  | .hbm, ⟨42, _⟩ => ⟨S2000000, .i32⟩
  | .hbm, ⟨43, _⟩ => ⟨S2000000, .i1⟩
  | .hbm, ⟨44, _⟩ => ⟨S_, .i32⟩
  | .hbm, ⟨45, _⟩ => ⟨S2000000, .i32⟩
  | .hbm, ⟨46, _⟩ => ⟨S2000000, .i32⟩
  | .hbm, ⟨47, _⟩ => ⟨S2000000, .i32⟩
  | .hbm, ⟨48, _⟩ => ⟨S2000000x1, .i32⟩
  | .hbm, ⟨49, _⟩ => ⟨S2000000, .f32⟩
  | .hbm, ⟨50, _⟩ => ⟨S2000000, .f32⟩
  | .hbm, ⟨51, _⟩ => ⟨S2000000, .f32⟩
  | .hbm, ⟨52, _⟩ => ⟨S2000000, .f32⟩
  | .hbm, ⟨53, _⟩ => ⟨S_, .f32⟩
  | .hbm, ⟨54, _⟩ => ⟨S2000000, .f32⟩
  | .hbm, ⟨55, _⟩ => ⟨S2000000, .f32⟩
  | .hbm, ⟨56, _⟩ => ⟨S_, .f32⟩
  | .hbm, ⟨57, _⟩ => ⟨S2000000, .f32⟩
  | .hbm, ⟨58, _⟩ => ⟨S2000000, .f32⟩
  | .hbm, ⟨59, _⟩ => ⟨S_, .f32⟩
  | .hbm, ⟨60, _⟩ => ⟨S2000000, .f32⟩
  | .hbm, ⟨61, _⟩ => ⟨S2000000, .f32⟩
  | .hbm, ⟨62, _⟩ => ⟨S_, .f32⟩
  | .hbm, ⟨63, _⟩ => ⟨S2000000, .f32⟩
  | .hbm, ⟨64, _⟩ => ⟨S2000000, .f32⟩
  | .hbm, ⟨65, _⟩ => ⟨S2000000, .f32⟩
  | .hbm, ⟨66, _⟩ => ⟨S_, .i32⟩
  | .hbm, ⟨67, _⟩ => ⟨S2000000, .i32⟩
  | .hbm, ⟨68, _⟩ => ⟨S2000000, .i1⟩
  | .hbm, ⟨69, _⟩ => ⟨S_, .i32⟩
  | .hbm, ⟨70, _⟩ => ⟨S2000000, .i32⟩
  | .hbm, ⟨71, _⟩ => ⟨S2000000, .i32⟩
  | .hbm, ⟨72, _⟩ => ⟨S2000000, .i32⟩
  | .hbm, ⟨73, _⟩ => ⟨S2000000x1, .i32⟩
  | .hbm, ⟨74, _⟩ => ⟨S2000000, .f32⟩
  | .hbm, ⟨75, _⟩ => ⟨S2000000, .f32⟩
  | .hbm, ⟨76, _⟩ => ⟨S2000000, .f32⟩
  | .hbm, ⟨77, _⟩ => ⟨S_, .i32⟩
  | .hbm, ⟨78, _⟩ => ⟨S2000000, .i32⟩
  | .hbm, ⟨79, _⟩ => ⟨S2000000, .i1⟩
  | .hbm, ⟨80, _⟩ => ⟨S_, .i32⟩
  | .hbm, ⟨81, _⟩ => ⟨S2000000, .i32⟩
  | .hbm, ⟨82, _⟩ => ⟨S2000000, .i32⟩
  | .hbm, ⟨83, _⟩ => ⟨S2000000, .i32⟩
  | .hbm, ⟨84, _⟩ => ⟨S2000000x1, .i32⟩
  | .hbm, ⟨85, _⟩ => ⟨S2000000, .f32⟩
  | .hbm, ⟨86, _⟩ => ⟨S2000000, .f32⟩
  | .hbm, ⟨87, _⟩ => ⟨S2000000, .f32⟩
  | .hbm, ⟨88, _⟩ => ⟨S2000000x1, .f32⟩
  | .hbm, ⟨89, _⟩ => ⟨S_, .i32⟩
  | .hbm, ⟨90, _⟩ => ⟨S2000000, .i32⟩
  | .hbm, ⟨91, _⟩ => ⟨S2000000, .i1⟩
  | .hbm, ⟨92, _⟩ => ⟨S_, .i32⟩
  | .hbm, ⟨93, _⟩ => ⟨S2000000, .i32⟩
  | .hbm, ⟨94, _⟩ => ⟨S2000000, .i32⟩
  | .hbm, ⟨95, _⟩ => ⟨S2000000, .i32⟩
  | .hbm, ⟨96, _⟩ => ⟨S2000000x1, .i32⟩
  | .hbm, ⟨97, _⟩ => ⟨S2000000x64, .f32⟩
  | .hbm, ⟨98, _⟩ => ⟨S2000000x64, .f32⟩
  | .hbm, ⟨99, _⟩ => ⟨S2000000x64, .f32⟩
  | .hbm, ⟨100, _⟩ => ⟨S_, .f32⟩
  | .hbm, ⟨101, _⟩ => ⟨S100000x64, .f32⟩
  | .hbm, ⟨102, _⟩ => ⟨S2000000x1, .i32⟩
  | .hbm, ⟨103, _⟩ => ⟨S100000x64, .f32⟩
  | .hbm, ⟨104, _⟩ => ⟨S_, .i32⟩
  | .hbm, ⟨105, _⟩ => ⟨S2000000, .i32⟩
  | .hbm, ⟨106, _⟩ => ⟨S2000000, .i1⟩
  | .hbm, ⟨107, _⟩ => ⟨S_, .i32⟩
  | .hbm, ⟨108, _⟩ => ⟨S2000000, .i32⟩
  | .hbm, ⟨109, _⟩ => ⟨S2000000, .i32⟩
  | .hbm, ⟨110, _⟩ => ⟨S2000000, .i32⟩
  | .hbm, ⟨111, _⟩ => ⟨S2000000x1, .i32⟩
  | .hbm, ⟨112, _⟩ => ⟨S2000000x64, .f32⟩
  | .hbm, ⟨113, _⟩ => ⟨S2000000x64, .f32⟩
  | .hbm, ⟨114, _⟩ => ⟨S2000000x64, .f32⟩
  | .hbm, ⟨115, _⟩ => ⟨S_, .f32⟩
  | .hbm, ⟨116, _⟩ => ⟨S50000x64, .f32⟩
  | .hbm, ⟨117, _⟩ => ⟨S2000000x1, .i32⟩
  | .hbm, ⟨118, _⟩ => ⟨S50000x64, .f32⟩
  | .hbm, ⟨119, _⟩ => ⟨S150000x64, .f32⟩
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_12 : Ref sig .tc := ⟨.hbm, 77, rfl⟩
abbrev main_v53 : Ref sig .tc := ⟨.hbm, 78, rfl⟩
abbrev main_v54 : Ref sig .tc := ⟨.hbm, 79, rfl⟩
abbrev main_c_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_14 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_16 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_19 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩

abbrev nD : Nat := 1
abbrev τ : Topo := Topo.v7x

variable {F : FTy → Type} [FloatOps F]

class Facts₀ : Prop where
  slices_S150000x64_S100000x64_0_0 : S150000x64.Slices ![0, 0] S100000x64
  slices_S150000x64_S50000x64_100000_0 : S150000x64.Slices ![100000, 0] S50000x64
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  reducesTo_S2000000x64_S2000000_d1 : S2000000x64.ReducesTo [1] S2000000
  bcast_S2000000x1_S2000000x64_0_1 : S2000000x1.BroadcastsInDim S2000000x64 (![0, 1] : Fin 2 → Fin S2000000x64.rank)
  bcast_S_S100000x64 : S_.BroadcastsInDim S100000x64 (![] : Fin 0 → Fin S100000x64.rank)
  bcast_S_S50000x64 : S_.BroadcastsInDim S50000x64 (![] : Fin 0 → Fin S50000x64.rank)
  concatenates_S100000x64_S50000x64_S150000x64_d0 : Shape.Concatenates [S100000x64, S50000x64] S150000x64 0
  gather_S100000x64_S2000000x1_S2000000x64_1_0_n_n_0_1_164_wf : GatherDims.WF S100000x64 S2000000x1 S2000000x64 [1] [0] [] [0] [] 1 ![1, 64]
  gather_S50000x64_S2000000x1_S2000000x64_1_0_n_n_0_1_164_wf : GatherDims.WF S50000x64 S2000000x1 S2000000x64 [1] [0] [] [0] [] 1 ![1, 64]
  gather_S100000_S2000000x1_S2000000_n_0_n_n_0_1_1_wf : GatherDims.WF S100000 S2000000x1 S2000000 [] [0] [] [0] [] 1 ![1]
  gather_S50000_S2000000x1_S2000000_n_0_n_n_0_1_1_wf : GatherDims.WF S50000 S2000000x1 S2000000 [] [0] [] [0] [] 1 ![1]
  scatter_S100000x64_S2000000x1_S2000000x64_1_0_0_1_wf : ScatterDims.WF S100000x64 S2000000x1 S2000000x64 [1] [0] [0] 1
  scatter_S50000x64_S2000000x1_S2000000x64_1_0_0_1_wf : ScatterDims.WF S50000x64 S2000000x1 S2000000x64 [1] [0] [0] 1

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def gather_S50000_S2000000x1_S2000000_n_0_n_n_0_1_1 : GatherDims S50000 S2000000x1 S2000000 where
  offsetDims := []
  collapsedSliceDims := [0]
  operandBatchingDims := []
  startIndicesBatchingDims := []
  startIndexMap := [0]
  indexVectorDim := 1
  sliceSizes := ![1]
  wf := gather_S50000_S2000000x1_S2000000_n_0_n_n_0_1_1_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf

class Facts : Prop extends Facts₀ where

variable [Facts]
-- ==== Proof.HostTerms.lean ====
/-
  The host operations between and after the two kernel regions, as functions of arrays.

  An edge's user word (item word) is taken modulo the table's height when negative, made a one-column array, and used to
  pick rows of the first 100000 (last 50000) rows of a table, or entries of a vector. The bias and the reciprocal of
  the product of the two degrees' square roots are laid side by side as a two-column array. After the second region
  the messages are summed into the users' and the items' rows by the unwrapped words and the two blocks are stacked.
-/
import proofs.«134471_j45853070852235_1_alg».proof.Proof.Gen.KernelIdeal
import Idealize.ShloMosaic.PureOps.Ideal

noncomputable section

namespace Cert.KernelIdeal.Named

open Cert.KernelIdeal Cert.KernelIdeal.Gen
open Idealize.ShloMosaic Idealize.ShloMosaic.TcCoe

/-- The user words, wrapped when negative, as a column. -/
def userCol (u : IVec S2000000 32) : IVec S2000000x1 32 :=
  broadcastInDim S2000000x1 ![0] bcast_S2000000_S2000000x1_0
    (select (cmpi CmpIPredicate.slt u (broadcastInDim S2000000 ![] bcast_S_S2000000 (constantI S_ 32 0#32)))
      (addi u (broadcastInDim S2000000 ![] bcast_S_S2000000 (constantI S_ 32 100000#32))) u)

/-- The item words, wrapped when negative, as a column. -/
def itemCol (i : IVec S2000000 32) : IVec S2000000x1 32 :=
  broadcastInDim S2000000x1 ![0] bcast_S2000000_S2000000x1_0
    (select (cmpi CmpIPredicate.slt i (broadcastInDim S2000000 ![] bcast_S_S2000000 (constantI S_ 32 0#32)))
      (addi i (broadcastInDim S2000000 ![] bcast_S_S2000000 (constantI S_ 32 50000#32))) i)

/-- Each edge's user row of a table: a row of its first 100000 rows. -/
def userRows (t : S150000x64.Idx → EReal) (u : IVec S2000000 32) : S2000000x64.Idx → EReal :=
  Host.gather gather_S100000x64_S2000000x1_S2000000x64_1_0_n_n_0_1_164
    (extractStridedSlice S100000x64 ![0, 0] t slices_S150000x64_S100000x64_0_0) (userCol u)

/-- Each edge's item row of a table: a row of its last 50000 rows. -/
def itemRows (t : S150000x64.Idx → EReal) (i : IVec S2000000 32) : S2000000x64.Idx → EReal :=
  Host.gather gather_S50000x64_S2000000x1_S2000000x64_1_0_n_n_0_1_164
    (extractStridedSlice S50000x64 ![100000, 0] t slices_S150000x64_S50000x64_100000_0) (itemCol i)

/-- Each edge's user entry of a vector over the users. -/
def userVals (v : S100000.Idx → EReal) (u : IVec S2000000 32) : S2000000.Idx → EReal :=
  Host.gather gather_S100000_S2000000x1_S2000000_n_0_n_n_0_1_1 v (userCol u)

/-- Each edge's item entry of a vector over the items. -/
def itemVals (v : S50000.Idx → EReal) (i : IVec S2000000 32) : S2000000.Idx → EReal :=
  Host.gather gather_S50000_S2000000x1_S2000000_n_0_n_n_0_1_1 v (itemCol i)

/-- The reciprocal of the product of the two degrees' square roots, edge by edge. -/
def recipDeg (du : S100000.Idx → EReal) (di : S50000.Idx → EReal) (u i : IVec S2000000 32) : S2000000.Idx → EReal :=
  Host.divf (F := Ideal) (broadcastInDim S2000000 ![] bcast_S_S2000000 (constant (F := Ideal) S_ .f32 0x3F800000#32))
    (mulf (F := Ideal) (Host.sqrt (F := Ideal) (userVals du u)) (Host.sqrt (F := Ideal) (itemVals di i)))

/-- The two-column array the second region reads: the bias, then that reciprocal. -/
def twoCols (b du : S100000.Idx → EReal) (di : S50000.Idx → EReal) (u i : IVec S2000000 32) : S2000000x2.Idx → EReal :=
  concatenate S2000000x2 1
    [⟨S2000000x1, broadcastInDim S2000000x1 ![0] bcast_S2000000_S2000000x1_0 (userVals b u)⟩,
     ⟨S2000000x1, broadcastInDim S2000000x1 ![0] bcast_S2000000_S2000000x1_0 (recipDeg du di u i)⟩]
    concatenates_S2000000x1_S2000000x1_S2000000x2_d1

/-- The messages summed into the users' rows and the items' rows by the edges' words, the two blocks stacked. -/
def sumBack (u i : IVec S2000000 32) (mu mi : S2000000x64.Idx → EReal) : S150000x64.Idx → EReal :=
  concatenate S150000x64 0
    [⟨S100000x64, Host.scatterAdd (F := Ideal) scatter_S100000x64_S2000000x1_S2000000x64_1_0_0_1
        (broadcastInDim S100000x64 ![] bcast_S_S100000x64 (constant (F := Ideal) S_ .f32 0x00000000#32))
        (broadcastInDim S2000000x1 ![0] bcast_S2000000_S2000000x1_0 u) mu⟩,
     ⟨S50000x64, Host.scatterAdd (F := Ideal) scatter_S50000x64_S2000000x1_S2000000x64_1_0_0_1
        (broadcastInDim S50000x64 ![] bcast_S_S50000x64 (constant (F := Ideal) S_ .f32 0x00000000#32))
        (broadcastInDim S2000000x1 ![0] bcast_S2000000_S2000000x1_0 i) mi⟩]
    concatenates_S100000x64_S50000x64_S150000x64_d0

end Cert.KernelIdeal.Named

end
-- ==== Proof.KernelHost.lean ====
/-
  What the host stretches hand to the second region and return at the end, over the arrays the regions leave.
-/
import proofs.«134471_j45853070852235_1_alg».proof.Proof.Gen.KernelIdeal.Frame
import proofs.«134471_j45853070852235_1_alg».proof.Proof.HostTerms
import Idealize.ShloMosaic.Lib.StableHlo.Run
import Idealize.ShloMosaic.Lib.ValueIdx
import Idealize.ShloMosaic.PureOps.Ideal

set_option maxRecDepth 16384

noncomputable section

namespace Cert.KernelIdeal.Named

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)
open Idealize.ShloMosaic.StableHlo

variable (m : (ℓ : Loc nD τ sig) → Buf (Elt Ideal) ℓ) (ρ : Dev nD → PrngReg)

/-- The table as the first region leaves it. -/
def unitTable (c : Dev nD) : S150000x64.Idx → EReal := (dat0 (F := Ideal) (V0 m ρ) c).arrAt 1 cfg0.N
/-- The users' messages as the second region leaves them. -/
def userMsgs (c : Dev nD) : S2000000x64.Idx → EReal := (dat1 (F := Ideal) (V2 m ρ) c).arrAt 5 cfg1.N
/-- The items' messages as the second region leaves them. -/
def itemMsgs (c : Dev nD) : S2000000x64.Idx → EReal := (dat1 (F := Ideal) (V2 m ρ) c).arrAt 6 cfg1.N

/-- The words of the users are no array of the first region: it leaves them as launched. -/
private theorem W1_arg4 (c : Dev nD) :
    W1 (F := Ideal) m ρ c (Proc.devRef .tc main_arg4) = m ((c : Thread nD τ).loc main_arg4) :=
  W1_of_ne m ρ c main_arg4 (by decide)

/-- The words of the items are no array of the first region: it leaves them as launched. -/
private theorem W1_arg5 (c : Dev nD) :
    W1 (F := Ideal) m ρ c (Proc.devRef .tc main_arg5) = m ((c : Thread nD τ).loc main_arg5) :=
  W1_of_ne m ρ c main_arg5 (by decide)

/-- The table is the first region's input array, which a pipeline leaves as it found it. -/
private theorem W1_arg0 (c : Dev nD) :
    W1 (F := Ideal) m ρ c (Proc.devRef .tc main_arg0) = m ((c : Thread nD τ).loc main_arg0) :=
  (W1_arr m ρ c 0).trans (((dat0 (V0 m ρ) c).arrAt_in 0 rfl _).trans (A_eq0 (V0 m ρ) c 0))

/-- The scaled table is the first region's output array. -/
private theorem W1_v0 (c : Dev nD) :
    W1 (F := Ideal) m ρ c (Proc.devRef .tc main_v0) = unitTable m ρ c := W1_arr m ρ c 1

set_option maxHeartbeats 2000000 in
theorem entry_zu (c : Dev nD) :
    V2 (F := Ideal) m ρ c main_v11 = userRows (unitTable m ρ c) (m ((c : Thread nD τ).loc main_arg4)) := by
  show StableHlo.after hostOps1 (W1 m ρ c) (Proc.devRef .tc main_v11) = _
  generalize hX : userRows (unitTable m ρ c) (m ((c : Thread nD τ).loc main_arg4)) = X
  after_results
  rw [W1_v0, W1_arg4]
  exact hX

set_option maxHeartbeats 2000000 in
theorem entry_zi (c : Dev nD) :
    V2 (F := Ideal) m ρ c main_v18 = itemRows (unitTable m ρ c) (m ((c : Thread nD τ).loc main_arg5)) := by
  show StableHlo.after hostOps1 (W1 m ρ c) (Proc.devRef .tc main_v18) = _
  generalize hX : itemRows (unitTable m ρ c) (m ((c : Thread nD τ).loc main_arg5)) = X
  after_results
  rw [W1_v0, W1_arg5]
  exact hX

set_option maxHeartbeats 2000000 in
theorem entry_xu (c : Dev nD) :
    V2 (F := Ideal) m ρ c main_v25 = userRows (m ((c : Thread nD τ).loc main_arg0)) (m ((c : Thread nD τ).loc main_arg4)) := by
  show StableHlo.after hostOps1 (W1 m ρ c) (Proc.devRef .tc main_v25) = _
  generalize hX : userRows (m ((c : Thread nD τ).loc main_arg0)) (m ((c : Thread nD τ).loc main_arg4)) = X
  after_results
  rw [W1_arg0, W1_arg4]
  exact hX

set_option maxHeartbeats 2000000 in
theorem entry_xi (c : Dev nD) :
    V2 (F := Ideal) m ρ c main_v32 = itemRows (m ((c : Thread nD τ).loc main_arg0)) (m ((c : Thread nD τ).loc main_arg5)) := by
  show StableHlo.after hostOps1 (W1 m ρ c) (Proc.devRef .tc main_v32) = _
  generalize hX : itemRows (m ((c : Thread nD τ).loc main_arg0)) (m ((c : Thread nD τ).loc main_arg5)) = X
  after_results
  rw [W1_arg0, W1_arg5]
  exact hX

/-- The bias and the two degree vectors are no array of the first region: it leaves them as launched. -/
private theorem W1_arg1 (c : Dev nD) :
    W1 (F := Ideal) m ρ c (Proc.devRef .tc main_arg1) = m ((c : Thread nD τ).loc main_arg1) :=
  W1_of_ne m ρ c main_arg1 (by decide)
private theorem W1_arg2 (c : Dev nD) :
    W1 (F := Ideal) m ρ c (Proc.devRef .tc main_arg2) = m ((c : Thread nD τ).loc main_arg2) :=
  W1_of_ne m ρ c main_arg2 (by decide)
private theorem W1_arg3 (c : Dev nD) :
    W1 (F := Ideal) m ρ c (Proc.devRef .tc main_arg3) = m ((c : Thread nD τ).loc main_arg3) :=
  W1_of_ne m ρ c main_arg3 (by decide)

/-- Two one-column arrays laid side by side. -/
private def sideBySide (a b : S2000000x1.Idx → EReal) : S2000000x2.Idx → EReal :=
  concatenate S2000000x2 1 [⟨S2000000x1, a⟩, ⟨S2000000x1, b⟩] concatenates_S2000000x1_S2000000x1_S2000000x2_d1

set_option maxHeartbeats 4000000 in
theorem entry_sc (c : Dev nD) :
    V2 (F := Ideal) m ρ c main_v61 = twoCols (m ((c : Thread nD τ).loc main_arg1)) (m ((c : Thread nD τ).loc main_arg2))
      (m ((c : Thread nD τ).loc main_arg3)) (m ((c : Thread nD τ).loc main_arg4)) (m ((c : Thread nD τ).loc main_arg5)) := by
  show StableHlo.after hostOps1 (W1 m ρ c) (Proc.devRef .tc main_v61) = _
  generalize hX : twoCols (m ((c : Thread nD τ).loc main_arg1)) (m ((c : Thread nD τ).loc main_arg2))
      (m ((c : Thread nD τ).loc main_arg3)) (m ((c : Thread nD τ).loc main_arg4)) (m ((c : Thread nD τ).loc main_arg5)) = X
  -- the last operation lays two columns side by side; each column is then read by itself
  simp only [after_cons, after_nil]
  rw [binary_result]
  change sideBySide _ _ = _
  after_results_simp
  rw [W1_arg1, W1_arg2, W1_arg3, W1_arg4, W1_arg5]
  exact hX

/-- The user words after the second region: nothing of the last stretch writes them, and the whole run leaves them
    as launched. -/
private theorem W3_arg4 (c : Dev nD) :
    W3 (F := Ideal) m ρ c (Proc.devRef .tc main_arg4) = m ((c : Thread nD τ).loc main_arg4) :=
  (StableHlo.after_of_forall_not_mem (b := Proc.devRef .tc main_arg4) hostOps2 (W3 m ρ c) (List.forall_iff_forall_mem.mp (by
    simp only [hostOps2, List.Forall, StableHlo.nullary_writes, StableHlo.unary_writes, StableHlo.binary_writes,
      StableHlo.ternary_writes, Finset.mem_singleton]
    repeat' apply And.intro
    all_goals exact StableHlo.devRef_ne_of_ne (by decide)))).symm.trans (W4_main_arg4 m ρ c)

/-- The item words after the second region, likewise. -/
private theorem W3_arg5 (c : Dev nD) :
    W3 (F := Ideal) m ρ c (Proc.devRef .tc main_arg5) = m ((c : Thread nD τ).loc main_arg5) :=
  (StableHlo.after_of_forall_not_mem (b := Proc.devRef .tc main_arg5) hostOps2 (W3 m ρ c) (List.forall_iff_forall_mem.mp (by
    simp only [hostOps2, List.Forall, StableHlo.nullary_writes, StableHlo.unary_writes, StableHlo.binary_writes,
      StableHlo.ternary_writes, Finset.mem_singleton]
    repeat' apply And.intro
    all_goals exact StableHlo.devRef_ne_of_ne (by decide)))).symm.trans (W4_main_arg5 m ρ c)

/-- The users' messages are the second region's sixth array. -/
private theorem W3_v62_0 (c : Dev nD) :
    W3 (F := Ideal) m ρ c (Proc.devRef .tc main_v62_0) = userMsgs m ρ c := W3_arr m ρ c 5

/-- The items' messages are the second region's seventh array. -/
private theorem W3_v62_1 (c : Dev nD) :
    W3 (F := Ideal) m ρ c (Proc.devRef .tc main_v62_1) = itemMsgs m ρ c := W3_arr m ρ c 6

set_option maxHeartbeats 2000000 in
theorem exit_result (c : Dev nD) :
    W4 (F := Ideal) m ρ c (Proc.devRef .tc main_v69)
      = sumBack (m ((c : Thread nD τ).loc main_arg4)) (m ((c : Thread nD τ).loc main_arg5)) (userMsgs m ρ c) (itemMsgs m ρ c) := by
  show StableHlo.after hostOps2 (W3 m ρ c) (Proc.devRef .tc main_v69) = _
  generalize hX : sumBack (m ((c : Thread nD τ).loc main_arg4)) (m ((c : Thread nD τ).loc main_arg5)) (userMsgs m ρ c) (itemMsgs m ρ c) = X
  after_results
  rw [W3_arg4, W3_arg5, W3_v62_0, W3_v62_1]
  exact hX

end Cert.KernelIdeal.Named

end
-- ==== Proof.Spec.lean ====
/-
  What both programs compute, index by index, on the extended reals.

  The table of 150000 rows of 64 entries is scaled row by row to unit length: entry (r, d) is divided by the larger of
  the row's Euclidean norm and a fixed small positive number. An edge e joins a user row and an item row; its score is
  the inner product of the two scaled rows minus a bias, its bump is 4 σ (1 − σ) of the logistic σ of the score, and
  its weight is the bump divided by the square roots of the two degrees. The reference divides twice; the kernel
  multiplies once by a reciprocal it was handed in the second column of a two-column array whose first column is the
  bias. An edge's message is its weight times a row of the unscaled table.
-/
import Idealize.ShloMosaic.PureOps.Ideal
import Idealize.ShloMosaic.Lib.ValueIdx

noncomputable section

namespace Cert.Spec

open Idealize.ShloMosaic Idealize.ShloMosaic.ValueIdx

/-- The table, an edge-by-column array, an edge vector and the two-column edge array. -/
abbrev SX : Shape := ⟨2, ![150000, 64]⟩
abbrev SE64 : Shape := ⟨2, ![2000000, 64]⟩
abbrev SE : Shape := ⟨1, ![2000000]⟩
abbrev SE2 : Shape := ⟨2, ![2000000, 2]⟩

/-- The float words both programs carry: the floor under a row's norm, one and four. -/
abbrev floorW : BitVec 32 := 0x2B8CBCCC#32
abbrev oneW : BitVec 32 := 0x3F800000#32
abbrev fourW : BitVec 32 := 0x40800000#32

/-- The sum of squares of row r. -/
def rowSq (x : SX.Idx → EReal) (r : Fin 150000) : EReal := ∑ k : Fin 64, x (ix2 r k) * x (ix2 r k)

/-- Entry (r, d) of the table scaled to unit rows. -/
def unitRowsAt (x : SX.Idx → EReal) (r : Fin 150000) (d : Fin 64) : EReal :=
  Ideal.div (x (ix2 r d)) (max (Ideal.sqrt (rowSq x r)) (Ideal.ofBits .f32 floorW))

/-- The table scaled to unit rows. -/
def unitRows (x : SX.Idx → EReal) : SX.Idx → EReal := fun i => unitRowsAt x (i 0) (i 1)

/-- The inner product of edge e's two rows. -/
def inner (zu zi : SE64.Idx → EReal) (e : Fin 2000000) : EReal := ∑ k : Fin 64, zu (ix2 e k) * zi (ix2 e k)

/-- 4 σ (1 − σ) at the logistic σ of a score. -/
def bump (s : EReal) : EReal :=
  (Ideal.ofBits .f32 fourW * Ideal.logistic s) * (Ideal.ofBits .f32 oneW - Ideal.logistic s)

/-- Edge e's weight as the reference takes it: the bump divided by each degree's square root in turn. -/
def weight (zu zi : SE64.Idx → EReal) (b du di : SE.Idx → EReal) (e : Fin 2000000) : EReal :=
  Ideal.div (Ideal.div (bump (inner zu zi e - b (ix1 e))) (Ideal.sqrt (du (ix1 e)))) (Ideal.sqrt (di (ix1 e)))

/-- Edge e's weight as the kernel takes it from the two-column array: bias in column 0, reciprocal in column 1. -/
def weightCols (zu zi : SE64.Idx → EReal) (sc : SE2.Idx → EReal) (e : Fin 2000000) : EReal :=
  bump (inner zu zi e - sc (ix2 e (0 : Fin 2))) * sc (ix2 e (1 : Fin 2))

/-- The messages: each edge's weight times its row of xs. -/
def edgeMsg (zu zi xs : SE64.Idx → EReal) (b du di : SE.Idx → EReal) : SE64.Idx → EReal :=
  fun i => weight zu zi b du di (i 0) * xs i

/-- The messages from the two-column array. -/
def edgeMsgCols (zu zi xs : SE64.Idx → EReal) (sc : SE2.Idx → EReal) : SE64.Idx → EReal :=
  fun i => weightCols zu zi sc (i 0) * xs i

end Cert.Spec

end
-- ==== Proof.LibColumn.lean ====
/-
  A column of row values read at an index.

  A row reduction that keeps its reduced axis produces an `[a]` array given a trailing unit axis, `[a, 1]`, and then
  spread along that axis to `[a, b]`: entry `(i, 0)` of the cast is the array's entry `i`, and entry `(i, j)` of the
  spread column is the column's entry `(i, 0)`, whatever the sizes and the element type.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.NormalizeRegion.lean ====
/-
  The first region, 75 blocks of 2000 rows, leaves the table scaled to unit rows.

  A block's payload at (p, q) is the block's entry over the larger of the norm of block row p — the square root of the
  sum of its 64 squares — and the floor. The block at point t holds rows 2000 t … 2000 t + 1999 of the table, whole
  rows, so the payload of the block is the same rows of the table scaled to unit rows; each point writes back its
  block of that one array, and the 75 blocks cover all 150000 rows.
-/
import proofs.«134471_j45853070852235_1_alg».proof.Proof.Gen.KernelIdeal.Frame
import proofs.«134471_j45853070852235_1_alg».proof.Proof.Spec
import proofs.«134471_j45853070852235_1_alg».proof.Proof.LibColumn
import Idealize.ShloMosaic.Lib.Pipeline.Value
import Idealize.ShloMosaic.PureOps.Ideal.Laws

set_option maxRecDepth 16384

noncomputable section

namespace Cert.KernelIdeal.Named

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The sum over a block row's 64 lanes. -/
theorem lane_sum (x : FVec Ideal S2000x64 .f32) (hφ : FKind.Formats .f32)
    (hacc : (0x00000000#32 : BitVec 32) = 0x00000000#32) (p : Fin 2000) :
    multiReduction (F := Ideal) .add [1] S2000 x 0x00000000#32 reduces_S2000x64_S2000 hφ hacc (ix1 p)
      = ∑ k : Fin 64, x (ix2 p k) := by
  refine (Ideal.multiReduction_add_single x 0x00000000#32 reduces_S2000x64_S2000 hφ hacc (ix1 p)).trans ?_
  show ∑ k : Fin 64, x (reduces_S2000x64_S2000.lift (ix1 p) k) = _
  refine Finset.sum_congr rfl fun k _ => congrArg x ?_
  funext a; apply Fin.ext
  match a with
  | ⟨0, _⟩ => rfl
  | ⟨1, _⟩ => rfl

/-- A block's payload at row p, lane q: the entry over the larger of the row's norm and the floor. -/
theorem block_unit_rows (x0 : Vec Ideal S2000x64 .f32) (p : Fin 2000) (q : Fin 64) :
    k0_pay1 x0 (ix2 p q)
      = Ideal.div (x0 (ix2 p q)) (max (Ideal.sqrt (∑ k : Fin 64, x0 (ix2 p k) * x0 (ix2 p k))) (Ideal.ofBits .f32 0x2B8CBCCC#32)) := by
  unfold k0_pay1
  dsimp only
  rw [divf_apply, Cert.LibColumn.broadcastTo_a1_ab_apply, maximumf_apply, broadcast_apply]
  show Ideal.div _ (max (Ideal.sqrt (shapeCast S2000x1 _ shapeCasts_S2000_S2000x1 (ix2 p (0 : Fin 1)))) _) = _
  rw [Cert.LibColumn.shapeCast_a_a1_apply, lane_sum]
  simp only [mulf_apply]
  rfl

theorem zero_offsets : (![0, 0] : Fin 2 → Nat) = fun _ => 0 := funext fun a => by fin_cases a <;> rfl

/-- Over the grid: point t's block, of either window, is block row t in the one block column. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point t holds rows 2000 t … 2000 t + 1999 of the table. -/
theorem input_block_apply (c : Dev nD) (t : Fin cfg0.N) (x : S2000x64.Idx) (k : S150000x64.Idx)
    (hk0 : (k 0).val = 2000 * t.val + (x 0).val) (hk1 : (k 1).val = (x 1).val) :
    (iblk0 V c 0 t : Vec Ideal S2000x64 .f32) x = (V c main_arg0 : S150000x64.Idx → EReal) k := by
  obtain ⟨e0, e1, -, -⟩ := block_index t
  unfold iblk0
  rw [View.read_apply]
  show V c main_arg0 _ = V c main_arg0 _
  congr 1
  funext a
  apply Fin.ext
  match a with
  | ⟨0, _⟩ => show win0_0.index t (0 : Fin 2) * 2000 + 1 * (x 0).val = (k 0).val; rw [e0, hk0]; omega
  | ⟨1, _⟩ => show win0_0.index t (1 : Fin 2) * 64 + 1 * (x 1).val = (k 1).val; rw [e1, hk1]; omega

/-- A block holding rows 2000 T … 2000 T + 1999 of a table, put through the payload, holds the same rows of the table
    scaled to unit rows: a row's norm is taken over its 64 entries, all inside the block. -/
theorem block_rows_unit (x : S150000x64.Idx → EReal) (x0 : Vec Ideal S2000x64 .f32) (T : Nat)
    (hx0 : ∀ (y : S2000x64.Idx) (k : S150000x64.Idx), (k 0).val = 2000 * T + (y 0).val → (k 1).val = (y 1).val → x0 y = x k)
    (j : S2000x64.Idx) (i : S150000x64.Idx) (hi0 : (i 0).val = 2000 * T + (j 0).val) (hi1 : (i 1).val = (j 1).val) :
    k0_pay1 x0 j = Spec.unitRows x i := by
  obtain ⟨p, q, rfl⟩ : ∃ (p : Fin 2000) (q : Fin 64), j = ix2 p q := ⟨j 0, j 1, eq_ix2 j⟩
  obtain ⟨r, d, rfl⟩ : ∃ (r : Fin 150000) (d : Fin 64), i = ix2 r d := ⟨i 0, i 1, eq_ix2 i⟩
  have hd : d = q := Fin.ext hi1
  subst hd
  have hs : ∀ k : Fin 64, x0 (ix2 p k) = x (ix2 r k) := fun k => hx0 (ix2 p k) (ix2 r k) hi0 rfl
  rw [block_unit_rows]
  simp only [hs]
  rfl

/-- What point t writes back is block t of the table scaled to unit rows. -/
theorem flushed_unit_rows (c : Dev nD) (t : Fin cfg0.N) :
    (dat0 (F := Ideal) V c).flushed 1 t = ((cfg0.win 1).blk t).view.read (Elt Ideal) (Spec.unitRows (V c main_arg0)) := by
  show (cfg0.win 1).cut (grid0.coords t) ((dat0 V c).after 1 t) = _
  rw [after0_1]
  unfold out0_1
  rw [View.canon_unit_zero zero_offsets]
  simp only [View.ld_unit_zero (S := S2000x64) zero_offsets]
  funext j
  show k0_pay1 (iblk0 V c 0 t) j = Spec.unitRows (V c main_arg0) (((cfg0.win 1).blk t).view.emb j)
  obtain ⟨-, -, e2, e3⟩ := block_index t
  refine block_rows_unit (V c main_arg0) (iblk0 V c 0 t) t.val (fun y k h0 h1 => input_block_apply V c t y k h0 h1) j _ ?_ ?_
  · show win0_1.index t (0 : Fin 2) * 2000 + 1 * (j 0).val = 2000 * t.val + (j 0).val
    rw [e2]; omega
  · show win0_1.index t (1 : Fin 2) * 64 + 1 * (j 1).val = (j 1).val
    rw [e3]; omega

/-- An index of the table is in point t's block iff each coordinate is in the block's range on its axis. -/
theorem mem_block (t : Fin cfg0.N) (i : S150000x64.Idx) :
    i ∈ ((cfg0.win 1).blk t).view.set ↔ ∀ a : Fin 2, win0_1.index t a * S2000x64.size a ≤ (i a).val ∧ (i a).val < win0_1.index t a * S2000x64.size a + S2000x64.size a := by
  show i ∈ ((View.whole main_v0).slice (win0_1.rect t)).set ↔ _
  rw [View.set_slice_whole, Rect.mem_set_unit]
  exact Iff.rfl

/-- Every entry of the table is in a block: row r in the block of point r / 2000, and 75 blocks of 2000 rows are all
    150000 rows. -/
theorem rows_covered (i : S150000x64.Idx) :
    ∃ t : Fin cfg0.N, (cfg0.win 1).flush t = true ∧ i ∈ ((cfg0.win 1).blk t).view.set := by
  have hi0 : (i 0).val < 150000 := (i 0).isLt
  have hi1 : (i 1).val < 64 := (i 1).isLt
  have hN : grid0.N = 75 := N_0
  obtain ⟨t, ht⟩ : ∃ t : Fin cfg0.N, t.val = (i 0).val / 2000 :=
    ⟨⟨(i 0).val / 2000, by show _ < grid0.N; rw [hN]; omega⟩, rfl⟩
  obtain ⟨-, -, e2, e3⟩ := block_index t
  refine ⟨t, flush0_1 t, ?_⟩
  rw [mem_block]
  intro a
  match a with
  | ⟨0, _⟩ =>
    show win0_1.index t (0 : Fin 2) * 2000 ≤ (i 0).val ∧ (i 0).val < win0_1.index t (0 : Fin 2) * 2000 + 2000
    rw [e2, ht]; omega
  | ⟨1, _⟩ =>
    show win0_1.index t (1 : Fin 2) * 64 ≤ (i 1).val ∧ (i 1).val < win0_1.index t (1 : Fin 2) * 64 + 64
    rw [e3]; omega

/-- The first region leaves its result array at the table scaled to unit rows: every point writes back its block of
    that one array, and the blocks cover it. -/
theorem unit_rows_array (c : Dev nD) :
    (dat0 (F := Ideal) V c).arrAt 1 cfg0.N = Spec.unitRows (V c main_arg0) :=
  (dat0 V c).arrAt_eq_of_cover 1 (Spec.unitRows (V c main_arg0)) (fun t _ => flushed_unit_rows V c t) rows_covered

end Cert.KernelIdeal.Named

end
-- ==== Proof.MessageRegion.lean ====
/-
  The second region, 400 blocks of 5000 edges, leaves each edge's weight times its row, for the users and for the items.
-/
import proofs.«134471_j45853070852235_1_alg».proof.Proof.Gen.KernelIdeal.Frame
import proofs.«134471_j45853070852235_1_alg».proof.Proof.Spec
import proofs.«134471_j45853070852235_1_alg».proof.Proof.LibColumn
import Idealize.ShloMosaic.Lib.Pipeline.Value
import Idealize.ShloMosaic.PureOps.Ideal.Laws

set_option maxRecDepth 16384

noncomputable section

namespace Cert.KernelIdeal.Named

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The sum along a row of a block of 5000 rows of 64 entries, read at row p. -/
private theorem row_sum_apply (v : FVec Ideal S5000x64 .f32) (hacc : (0x00000000#32 : BitVec 32) = 0x00000000#32) (p : Fin 5000) :
    multiReduction (F := Ideal) .add [1] S5000 v 0x00000000#32 reduces_S5000x64_S5000 (.inl rfl) hacc (ix1 p)
      = ∑ k : Fin 64, v (ix2 p k) := by
  refine (Ideal.multiReduction_add_single v 0x00000000#32 reduces_S5000x64_S5000 (.inl rfl) hacc (ix1 p)).trans ?_
  refine Finset.sum_congr rfl fun k _ => congrArg v ?_
  funext a
  apply Fin.ext
  match a with
  | ⟨0, _⟩ => rfl
  | ⟨1, _⟩ => rfl

/-- Column 0 of a block of the two-column array, read at row p: the bias. -/
private theorem bias_col_apply (x4 : Vec Ideal S5000x2 .f32) (p : Fin 5000) :
    extractStridedSlice S5000x1 ![0, 0] x4 slices_S5000x2_o0_0_S5000x1 (ix2 p (0 : Fin 1)) = x4 (ix2 p (0 : Fin 2)) :=
  extractStridedSlice_apply ![0, 0] x4 slices_S5000x2_o0_0_S5000x1 (ix2 p (0 : Fin 1)) (ix2 p (0 : Fin 2)) (fun a => match a with
    | ⟨0, _⟩ => by show p.val = 0 + p.val; omega
    | ⟨1, _⟩ => by show 0 = 0 + 0; rfl)

/-- Column 1 of a block of the two-column array, read at row p: the reciprocal. -/
private theorem recip_col_apply (x4 : Vec Ideal S5000x2 .f32) (p : Fin 5000) :
    extractStridedSlice S5000x1 ![0, 1] x4 slices_S5000x2_o0_1_S5000x1 (ix2 p (0 : Fin 1)) = x4 (ix2 p (1 : Fin 2)) :=
  extractStridedSlice_apply ![0, 1] x4 slices_S5000x2_o0_1_S5000x1 (ix2 p (0 : Fin 1)) (ix2 p (1 : Fin 2)) (fun a => match a with
    | ⟨0, _⟩ => by show p.val = 0 + p.val; omega
    | ⟨1, _⟩ => by show 1 = 1 + 0; rfl)

/-- The logistic of a vector, read at an index, is the logistic of the entry. -/
private theorem logistic_at {s : Shape} (x : FVec Ideal s .f32) (i : s.Idx) : logistic x i = Ideal.logistic (x i) := rfl

/-- The weight column of a block at row p: the bump of the row's inner product less the bias, times the reciprocal. -/
private theorem weight_col_apply (x0 x1 : Vec Ideal S5000x64 .f32) (x4 : Vec Ideal S5000x2 .f32) (p : Fin 5000) :
    k1_pay1 (F := Ideal) x0 x1 x4 (ix2 p (0 : Fin 1))
      = Spec.bump ((∑ k : Fin 64, x0 (ix2 p k) * x1 (ix2 p k)) - x4 (ix2 p (0 : Fin 2))) * x4 (ix2 p (1 : Fin 2)) := by
  unfold k1_pay1
  simp only [shapeCast_self]
  simp only [mulf_apply, subf_apply, broadcast_apply, logistic_at, Ideal.ofBits_def]
  rw [recip_col_apply, bias_col_apply, LibColumn.shapeCast_a_a1_apply, row_sum_apply]
  simp only [mulf_apply]
  rfl

/-- An entry of the message block: the weight of its row times the entry of the row block, said of arrays that hold
    the blocks' rows at edge e. -/
private theorem msg_entry (x0 x1 xr : Vec Ideal S5000x64 .f32) (x4 : Vec Ideal S5000x2 .f32)
    (zu zi xs : Spec.SE64.Idx → EReal) (sc : Spec.SE2.Idx → EReal) (e : Fin 2000000) (p : Fin 5000) (d : Fin 64)
    (h0 : ∀ k : Fin 64, x0 (ix2 p k) = zu (ix2 e k)) (h1 : ∀ k : Fin 64, x1 (ix2 p k) = zi (ix2 e k))
    (hr : xr (ix2 p d) = xs (ix2 e d)) (h4 : ∀ u : Fin 2, x4 (ix2 p u) = sc (ix2 e u)) :
    k1_pay2 (F := Ideal) x0 x1 x4 xr (ix2 p d) = Spec.edgeMsgCols zu zi xs sc (ix2 e d) := by
  unfold k1_pay2
  simp only [shapeCast_self]
  rw [mulf_apply, LibColumn.broadcastTo_a1_ab_apply, weight_col_apply, hr, h4, h4]
  simp only [h0, h1]
  rfl

/-- The second output's payload is the first's with the other row block. -/
private theorem item_payload_eq (x0 x1 xr : Vec Ideal S5000x64 .f32) (x4 : Vec Ideal S5000x2 .f32) :
    k1_pay3 (F := Ideal) x0 x1 x4 xr = k1_pay2 (F := Ideal) x0 x1 x4 xr := rfl

private theorem zero_offsets : (![0, 0] : Fin 2 → Nat) = fun _ => 0 := funext fun a => by fin_cases a <;> rfl

/-- Block t holds rows 5000 t to 5000 t + 4999 and every column, in each of the seven windows. -/
private theorem block_index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0) :=
  (by decide +kernel : ∀ t : Fin grid1.N, _)

/-- Row p of block t is edge 5000 t + p. -/
private def edgeRow (t : Fin cfg1.N) (p : Fin 5000) : Fin 2000000 :=
  ⟨t.val * 5000 + p.val, by have h : t.val < 400 := t.isLt; have := p.isLt; omega⟩

/-- The blocks of the four row arrays and of the two-column array at point t hold the arrays' rows 5000 t + p. -/
private theorem user_rows_block (c : Dev nD) (t : Fin cfg1.N) (p : Fin 5000) (k : Fin 64) :
    iblk1 (F := Ideal) V c 0 t (ix2 p k) = V c main_v11 (ix2 (edgeRow t p) k) := by
  obtain ⟨⟨e0, e1⟩, -⟩ := block_index_facts t
  show V c main_v11 (((cfg1.win 0).blk t).view.emb (ix2 p k)) = V c main_v11 (ix2 (edgeRow t p) k)
  refine congrArg (V c main_v11) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 64 + 1 * k.val = k.val; rw [e1]; omega

private theorem item_rows_block (c : Dev nD) (t : Fin cfg1.N) (p : Fin 5000) (k : Fin 64) :
    iblk1 (F := Ideal) V c 1 t (ix2 p k) = V c main_v18 (ix2 (edgeRow t p) k) := by
  obtain ⟨-, ⟨e0, e1⟩, -⟩ := block_index_facts t
  show V c main_v18 (((cfg1.win 1).blk t).view.emb (ix2 p k)) = V c main_v18 (ix2 (edgeRow t p) k)
  refine congrArg (V c main_v18) (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 64 + 1 * k.val = k.val; rw [e1]; omega

private theorem item_table_block (c : Dev nD) (t : Fin cfg1.N) (p : Fin 5000) (k : Fin 64) :
    iblk1 (F := Ideal) V c 2 t (ix2 p k) = V c main_v25 (ix2 (edgeRow t p) k) := by
  obtain ⟨-, -, ⟨e0, e1⟩, -⟩ := block_index_facts t
  show V c main_v25 (((cfg1.win 2).blk t).view.emb (ix2 p k)) = V c main_v25 (ix2 (edgeRow t p) k)
  refine congrArg (V c main_v25) (funext fun a => Fin.ext ?_)
  match a with
  | ⟨0, _⟩ => show win1_2.index t (0 : Fin 2) * 5000 + 1 * p.val = t.val * 5000 + p.val; rw [e0]; omega
  | ⟨1, _⟩ => show win1_2.index t (1 : Fin 2) * 64 + 1 * k.val = k.val; rw [e1]; omega

private theorem user_table_block (c : Dev nD) (t : Fin cfg1.N) (p : Fin 5000) (k : Fin 64) :
    iblk1 (F := Ideal) V c 3 t (ix2 p k) = V c main_v32 (ix2 (edgeRow t p) k) := by
  obtain ⟨-, -, -, ⟨e0, e1⟩, -⟩ := block_index_facts t
  show V c main_v32 (((cfg1.win 3).blk t).view.emb (ix2 p k)) = V c main_v32 (ix2 (edgeRow t p) k)
  refine congrArg (V c main_v32) (funext fun a => Fin.ext ?_)
  match a with
  | ⟨0, _⟩ => show win1_3.index t (0 : Fin 2) * 5000 + 1 * p.val = t.val * 5000 + p.val; rw [e0]; omega
  | ⟨1, _⟩ => show win1_3.index t (1 : Fin 2) * 64 + 1 * k.val = k.val; rw [e1]; omega

private theorem two_cols_block (c : Dev nD) (t : Fin cfg1.N) (p : Fin 5000) (u : Fin 2) :
    iblk1 (F := Ideal) V c 4 t (ix2 p u) = V c main_v61 (ix2 (edgeRow t p) u) := by
  obtain ⟨-, -, -, -, ⟨e0, e1⟩, -⟩ := block_index_facts t
  show V c main_v61 (((cfg1.win 4).blk t).view.emb (ix2 p u)) = V c main_v61 (ix2 (edgeRow t p) u)
  refine congrArg (V c main_v61) (funext fun a => Fin.ext ?_)
  match a with
  | ⟨0, _⟩ => show win1_4.index t (0 : Fin 2) * 5000 + 1 * p.val = t.val * 5000 + p.val; rw [e0]; omega
  | ⟨1, _⟩ => show win1_4.index t (1 : Fin 2) * 2 + 1 * u.val = u.val; rw [e1]; omega

/-- Entry (p, d) of the output blocks at point t sits at (5000 t + p, d) of the output arrays. -/
private theorem user_msgs_emb (t : Fin cfg1.N) (p : Fin 5000) (d : Fin 64) :
    ((cfg1.win 5).blk t).view.emb (ix2 p d) = ix2 (edgeRow t p) d := by
  obtain ⟨-, -, -, -, -, ⟨e0, e1⟩, -⟩ := block_index_facts t
  funext a
  apply Fin.ext
  match a with
  | ⟨0, _⟩ => show win1_5.index t (0 : Fin 2) * 5000 + 1 * p.val = t.val * 5000 + p.val; rw [e0]; omega
  | ⟨1, _⟩ => show win1_5.index t (1 : Fin 2) * 64 + 1 * d.val = d.val; rw [e1]; omega

private theorem item_msgs_emb (t : Fin cfg1.N) (p : Fin 5000) (d : Fin 64) :
    ((cfg1.win 6).blk t).view.emb (ix2 p d) = ix2 (edgeRow t p) d := by
  obtain ⟨-, -, -, -, -, -, e0, e1⟩ := block_index_facts t
  funext a
  apply Fin.ext
  match a with
  | ⟨0, _⟩ => show win1_6.index t (0 : Fin 2) * 5000 + 1 * p.val = t.val * 5000 + p.val; rw [e0]; omega
  | ⟨1, _⟩ => show win1_6.index t (1 : Fin 2) * 64 + 1 * d.val = d.val; rw [e1]; omega

/-- What point t writes back to the users' message array is block t of the messages. -/
private theorem user_msgs_flushed (c : Dev nD) (t : Fin cfg1.N) :
    (dat1 (F := Ideal) V c).flushed 5 t = ((cfg1.win 5).blk t).view.read (Elt Ideal)
      (Spec.edgeMsgCols (V c main_v11) (V c main_v18) (V c main_v32) (V c main_v61)) := by
  show (cfg1.win 5).cut (grid1.coords t) ((dat1 V c).after 5 t) = _
  rw [after1_5]
  unfold out1_5
  rw [View.canon_unit_zero zero_offsets]
  simp only [View.ld_unit_zero (S := S5000x64) zero_offsets, View.ld_unit_zero (S := S5000x2) zero_offsets]
  funext j
  obtain ⟨p, d, rfl⟩ : ∃ (p : Fin 5000) (d : Fin 64), j = ix2 p d := ⟨j 0, j 1, eq_ix2 j⟩
  show k1_pay2 (iblk1 V c 0 t) (iblk1 V c 1 t) (iblk1 V c 4 t) (iblk1 V c 3 t) (ix2 p d)
    = Spec.edgeMsgCols (V c main_v11) (V c main_v18) (V c main_v32) (V c main_v61) (((cfg1.win 5).blk t).view.emb (ix2 p d))
  rw [user_msgs_emb t p d]
  exact msg_entry _ _ _ _ _ _ _ _ (edgeRow t p) p d (fun k => user_rows_block V c t p k) (fun k => item_rows_block V c t p k)
    (user_table_block V c t p d) (fun u => two_cols_block V c t p u)

/-- What point t writes back to the items' message array is block t of the messages. -/
private theorem item_msgs_flushed (c : Dev nD) (t : Fin cfg1.N) :
    (dat1 (F := Ideal) V c).flushed 6 t = ((cfg1.win 6).blk t).view.read (Elt Ideal)
      (Spec.edgeMsgCols (V c main_v11) (V c main_v18) (V c main_v25) (V c main_v61)) := by
  show (cfg1.win 6).cut (grid1.coords t) ((dat1 V c).after 6 t) = _
  rw [after1_6]
  unfold out1_6
  rw [View.canon_unit_zero zero_offsets]
  simp only [View.ld_unit_zero (S := S5000x64) zero_offsets, View.ld_unit_zero (S := S5000x2) zero_offsets]
  funext j
  obtain ⟨p, d, rfl⟩ : ∃ (p : Fin 5000) (d : Fin 64), j = ix2 p d := ⟨j 0, j 1, eq_ix2 j⟩
  show k1_pay3 (iblk1 V c 0 t) (iblk1 V c 1 t) (iblk1 V c 4 t) (iblk1 V c 2 t) (ix2 p d)
    = Spec.edgeMsgCols (V c main_v11) (V c main_v18) (V c main_v25) (V c main_v61) (((cfg1.win 6).blk t).view.emb (ix2 p d))
  rw [item_msgs_emb t p d, item_payload_eq]
  exact msg_entry _ _ _ _ _ _ _ _ (edgeRow t p) p d (fun k => user_rows_block V c t p k) (fun k => item_rows_block V c t p k)
    (item_table_block V c t p d) (fun u => two_cols_block V c t p u)

/-- An index of an output array is in point t's block iff each coordinate is in the block's range on its axis. -/
private theorem mem_user_msgs_block (t : Fin cfg1.N) (i : S2000000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v62_0).slice (win1_5.rect t)).set ↔ _
  rw [View.set_slice_whole, Rect.mem_set_unit]
  exact Iff.rfl

private theorem mem_item_msgs_block (t : Fin cfg1.N) (i : S2000000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v62_1).slice (win1_6.rect t)).set ↔ _
  rw [View.set_slice_whole, Rect.mem_set_unit]
  exact Iff.rfl

/-- Every index of an output array is in the block of the point that its row, divided by 5000, names. -/
private theorem user_msgs_cover (i : S2000000x64.Idx) :
    ∃ t : Fin cfg1.N, (cfg1.win 5).flush t = true ∧ i ∈ ((cfg1.win 5).blk t).view.set := by
  have hi0 : (i 0).val < 2000000 := (i 0).isLt
  have hi1 : (i 1).val < 64 := (i 1).isLt
  obtain ⟨t, ht⟩ : ∃ t : Fin cfg1.N, t.val = (i 0).val / 5000 := ⟨⟨(i 0).val / 5000, by show _ < 400; omega⟩, rfl⟩
  obtain ⟨-, -, -, -, -, ⟨e0, e1⟩, -⟩ := block_index_facts t
  refine ⟨t, flush1_5 t, ?_⟩
  rw [mem_user_msgs_block]
  intro a
  match a with
  | ⟨0, _⟩ => show win1_5.index t (0 : Fin 2) * 5000 ≤ (i 0).val ∧ (i 0).val < win1_5.index t (0 : Fin 2) * 5000 + 5000; rw [e0]; omega
  | ⟨1, _⟩ => show win1_5.index t (1 : Fin 2) * 64 ≤ (i 1).val ∧ (i 1).val < win1_5.index t (1 : Fin 2) * 64 + 64; rw [e1]; omega

private theorem item_msgs_cover (i : S2000000x64.Idx) :
    ∃ t : Fin cfg1.N, (cfg1.win 6).flush t = true ∧ i ∈ ((cfg1.win 6).blk t).view.set := by
  have hi0 : (i 0).val < 2000000 := (i 0).isLt
  have hi1 : (i 1).val < 64 := (i 1).isLt
  obtain ⟨t, ht⟩ : ∃ t : Fin cfg1.N, t.val = (i 0).val / 5000 := ⟨⟨(i 0).val / 5000, by show _ < 400; omega⟩, rfl⟩
  obtain ⟨-, -, -, -, -, -, e0, e1⟩ := block_index_facts t
  refine ⟨t, flush1_6 t, ?_⟩
  rw [mem_item_msgs_block]
  intro a
  match a with
  | ⟨0, _⟩ => show win1_6.index t (0 : Fin 2) * 5000 ≤ (i 0).val ∧ (i 0).val < win1_6.index t (0 : Fin 2) * 5000 + 5000; rw [e0]; omega
  | ⟨1, _⟩ => show win1_6.index t (1 : Fin 2) * 64 ≤ (i 1).val ∧ (i 1).val < win1_6.index t (1 : Fin 2) * 64 + 64; rw [e1]; omega

theorem user_msgs_array (c : Dev nD) :
    (dat1 (F := Ideal) V c).arrAt 5 cfg1.N = Spec.edgeMsgCols (V c main_v11) (V c main_v18) (V c main_v32) (V c main_v61) :=
  (dat1 (F := Ideal) V c).arrAt_eq_of_cover 5 _ (fun t _ => user_msgs_flushed V c t) user_msgs_cover

theorem item_msgs_array (c : Dev nD) :
    (dat1 (F := Ideal) V c).arrAt 6 cfg1.N = Spec.edgeMsgCols (V c main_v11) (V c main_v18) (V c main_v25) (V c main_v61) :=
  (dat1 (F := Ideal) V c).arrAt_eq_of_cover 6 _ (fun t _ => item_msgs_flushed V c t) item_msgs_cover

end Cert.KernelIdeal.Named

end
-- ==== Proof.LibIdealReal.lean ====
/-
  The float operations at the ideal values — a float is an extended real — on arguments that are coerced reals:
  each gives the coerced real operation. The arithmetic of coerced reals, the absolute value, minimum and
  maximum; the exponential and the logarithm; the quotient by a nonzero real; the extended reals that six
  32-bit patterns denote; the conversions of a one-bit word and of a signed word; the comparison of two
  coerced reals; a finite sum of coerced reals; and the maximum of finitely many coerced reals, folded from
  the bottom element.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Log.Basic
import Mathlib.Algebra.BigOperators.Group.Finset.Basic
import Mathlib.Data.Finset.Lattice.Fold

noncomputable section

namespace Cert.LibIdealReal

open Idealize.ShloMosaic
open scoped BigOperators

variable {φ : FTy}

/-! ## Arithmetic of coerced reals -/

/-- The product of two coerced reals is the coerced product. -/
theorem mul_coe (a b : ℝ) : (a : EReal) * (b : EReal) = ((a * b : ℝ) : EReal) := (EReal.coe_mul a b).symm

/-- The sum of two coerced reals is the coerced sum. -/
theorem add_coe (a b : ℝ) : (a : EReal) + (b : EReal) = ((a + b : ℝ) : EReal) := (EReal.coe_add a b).symm

/-- The difference of two coerced reals is the coerced difference. -/
theorem sub_coe (a b : ℝ) : (a : EReal) - (b : EReal) = ((a - b : ℝ) : EReal) := (EReal.coe_sub a b).symm

/-- The negation of a coerced real is the coerced negation. -/
theorem neg_coe (a : ℝ) : -(a : EReal) = ((-a : ℝ) : EReal) := (EReal.coe_neg a).symm

/-- The maximum of two coerced reals is the coerced maximum. -/
theorem max_coe (a b : ℝ) : max (a : EReal) (b : EReal) = ((max a b : ℝ) : EReal) :=
  (EReal.coe_strictMono.monotone.map_max (a := a) (b := b)).symm

/-- The minimum of two coerced reals is the coerced minimum. -/
theorem min_coe (a b : ℝ) : min (a : EReal) (b : EReal) = ((min a b : ℝ) : EReal) :=
  (EReal.coe_strictMono.monotone.map_min (a := a) (b := b)).symm

/-- The larger of a coerced real and its negation is the coerced absolute value. -/
theorem abs_coe (a : ℝ) : max (a : EReal) (-(a : EReal)) = ((|a| : ℝ) : EReal) := by
  rw [neg_coe, max_coe, abs_eq_max_neg]

/-- The coerced real zero is the extended real zero. -/
theorem zero_coe : (0 : EReal) = ((0 : ℝ) : EReal) := EReal.coe_zero.symm

/-- The coerced real one is the extended real one. -/
theorem one_coe : (1 : EReal) = ((1 : ℝ) : EReal) := EReal.coe_one.symm

/-! ## Exponential, logarithm, quotient -/

/-- The exponential of a coerced real is the coerced real exponential. -/
theorem exp_coe (a : ℝ) : Ideal.exp (a : EReal) = ((Real.exp a : ℝ) : EReal) := rfl

/-- The logarithm of a coerced positive real is the coerced real logarithm. -/
theorem log_coe {a : ℝ} (h : 0 < a) : Ideal.log (a : EReal) = ((Real.log a : ℝ) : EReal) := by
  rw [Ideal.log_coe, if_neg (not_le.mpr h)]

/-- The logarithm of a coerced real that is not positive is the bottom element. -/
theorem log_coe_nonpos {a : ℝ} (h : a ≤ 0) : Ideal.log (a : EReal) = ⊥ := by
  rw [Ideal.log_coe, if_pos h]

/-- The quotient of a coerced real by a coerced nonzero real is the coerced quotient. -/
theorem div_coe (a : ℝ) {b : ℝ} (h : b ≠ 0) : Ideal.div (a : EReal) (b : EReal) = ((a / b : ℝ) : EReal) := by
  rw [Ideal.div_coe h, mul_coe, mul_one_div]

/-! ## Six patterns -/

/-- The all-zero pattern denotes zero. -/
theorem ofBits_zero : Ideal.ofBits .f32 0x00000000#32 = 0 := Ideal.ofBits_zero_f32

/-- The all-zero pattern denotes the coerced real zero. -/
theorem ofBits_zero_coe : Ideal.ofBits .f32 0x00000000#32 = ((0 : ℝ) : EReal) := by
  rw [ofBits_zero, zero_coe]

/-- The pattern of one denotes the coerced real one. -/
theorem ofBits_one_coe : Ideal.ofBits .f32 0x3F800000#32 = ((1 : ℝ) : EReal) := by
  simp [Ideal.ofBits, Ideal.ieee, -EReal.coe_mul]; norm_num

/-- The pattern of one denotes one. -/
theorem ofBits_one : Ideal.ofBits .f32 0x3F800000#32 = 1 := by
  rw [ofBits_one_coe, one_coe]

/-- The pattern of one half denotes the coerced real one half. -/
theorem ofBits_half : Ideal.ofBits .f32 0x3F000000#32 = ((1 / 2 : ℝ) : EReal) := by
  simp [Ideal.ofBits, Ideal.ieee, -EReal.coe_mul]; norm_num

/-- The pattern of 4096 denotes the coerced real 4096. -/
theorem ofBits_4096 : Ideal.ofBits .f32 0x45800000#32 = ((4096 : ℝ) : EReal) := by
  simp [Ideal.ofBits, Ideal.ieee, -EReal.coe_mul]; norm_num

/-- The pattern of 32 denotes the coerced real 32. -/
theorem ofBits_32 : Ideal.ofBits .f32 0x42000000#32 = ((32 : ℝ) : EReal) := by
  simp [Ideal.ofBits, Ideal.ieee, -EReal.coe_mul]; norm_num

/-- The pattern of minus infinity denotes the bottom element. -/
theorem ofBits_neg_inf : Ideal.ofBits .f32 0xFF800000#32 = ⊥ := by
  simp [Ideal.ofBits, Ideal.ieee]

/-! ## Conversions of words -/

/-- A one-bit word is zero or one. -/
theorem bit_cases (b : BitVec 1) : b = 0#1 ∨ b = 1#1 := by
  have h := b.isLt
  rcases (by omega : b.toNat = 0 ∨ b.toNat = 1) with h0 | h1
  · left; exact BitVec.eq_of_toNat_eq (by simpa using h0)
  · right; exact BitVec.eq_of_toNat_eq (by simpa using h1)

/-- The signed conversion of a word is the coerced real of its signed value. -/
theorem sitofp_def {w : Nat} (b : BitVec w) : FloatOps.sitofp (F := Ideal) φ b = (((b.toInt : ℤ) : ℝ) : EReal) := rfl

/-- The unsigned conversion of a word is the coerced real of its unsigned value. -/
theorem uitofp_def {w : Nat} (b : BitVec w) : FloatOps.uitofp (F := Ideal) φ b = (((b.toNat : ℕ) : ℝ) : EReal) := rfl

/-- The signed conversion of a word whose signed value is `n` is the coerced real `n`. -/
theorem sitofp_of_toInt {w : Nat} (b : BitVec w) (n : ℤ) (h : b.toInt = n) :
    FloatOps.sitofp (F := Ideal) φ b = ((n : ℝ) : EReal) := by
  rw [sitofp_def, h]

/-- The unsigned conversion of the one-bit word one is the coerced real one. -/
theorem uitofp_bit_one : FloatOps.uitofp (F := Ideal) φ (1#1) = ((1 : ℝ) : EReal) := by
  rw [uitofp_def]; norm_num

/-- The unsigned conversion of the one-bit word zero is the coerced real zero. -/
theorem uitofp_bit_zero : FloatOps.uitofp (F := Ideal) φ (0#1) = ((0 : ℝ) : EReal) := by
  rw [uitofp_def]; norm_num

/-- The unsigned conversion of a one-bit word is one or zero as the word is one or not. -/
theorem uitofp_bit (b : BitVec 1) :
    FloatOps.uitofp (F := Ideal) φ b = ((if b = 1#1 then (1 : ℝ) else 0 : ℝ) : EReal) := by
  rcases bit_cases b with rfl | rfl
  · rw [uitofp_bit_zero, if_neg (by decide)]
  · rw [uitofp_bit_one, if_pos rfl]

/-- The signed conversion of the one-bit word one, zero-extended to 32 bits, is the coerced real one. -/
theorem sitofp_extui_bit_one : FloatOps.sitofp (F := Ideal) φ ((1#1 : BitVec 1).setWidth 32) = ((1 : ℝ) : EReal) := by
  rw [sitofp_of_toInt _ 1 (by decide)]; norm_num

/-- The signed conversion of the one-bit word zero, zero-extended to 32 bits, is the coerced real zero. -/
theorem sitofp_extui_bit_zero : FloatOps.sitofp (F := Ideal) φ ((0#1 : BitVec 1).setWidth 32) = ((0 : ℝ) : EReal) := by
  rw [sitofp_of_toInt _ 0 (by decide)]; norm_num

/-- The signed conversion of a zero-extended one-bit word is one or zero as the word is one or not. -/
theorem sitofp_extui_bit (b : BitVec 1) :
    FloatOps.sitofp (F := Ideal) φ (b.setWidth 32) = ((if b = 1#1 then (1 : ℝ) else 0 : ℝ) : EReal) := by
  rcases bit_cases b with rfl | rfl
  · rw [sitofp_extui_bit_zero, if_neg (by decide)]
  · rw [sitofp_extui_bit_one, if_pos rfl]

/-! ## Comparison -/

/-- The strict comparison of two coerced reals is the one-bit word one exactly when the first is below the second. -/
theorem cmp_olt_coe (a b : ℝ) : Ideal.cmp .olt (a : EReal) (b : EReal) = if a < b then 1#1 else 0#1 := by
  by_cases h : a < b
  · simp [Ideal.cmp, h]
  · simp [Ideal.cmp, h]

/-- A choice by the strict comparison of two coerced reals is the choice by the comparison of the reals. -/
theorem select_cmp_olt_coe {α : Type} (a b : ℝ) (x y : α) :
    Scalar.select (Ideal.cmp .olt (a : EReal) (b : EReal)) x y = if a < b then x else y := by
  rw [cmp_olt_coe]
  by_cases h : a < b
  · rw [if_pos h, if_pos h]; exact if_pos rfl
  · rw [if_neg h, if_neg h]; exact if_neg (by decide)

/-! ## Finite sums -/

/-- A finite sum of coerced reals is the coerced sum. -/
theorem sum_coe {ι : Type*} (s : Finset ι) (f : ι → ℝ) :
    ∑ i ∈ s, ((f i : ℝ) : EReal) = ((∑ i ∈ s, f i : ℝ) : EReal) := by
  classical
  refine Finset.induction_on s (by simp) ?_
  intro i s hi ih
  rw [Finset.sum_insert hi, Finset.sum_insert hi, ih, EReal.coe_add]

/-- A sum over a finite type of coerced reals is the coerced sum. -/
theorem sum_univ_coe {ι : Type*} [Fintype ι] (f : ι → ℝ) :
    ∑ i, ((f i : ℝ) : EReal) = ((∑ i, f i : ℝ) : EReal) := sum_coe Finset.univ f

/-- A finite sum of extended reals, each a coerced real, is the coerced sum of the reals. -/
theorem sum_of_eq {ι : Type*} (s : Finset ι) (g : ι → EReal) (f : ι → ℝ) (hg : ∀ i ∈ s, g i = ((f i : ℝ) : EReal)) :
    ∑ i ∈ s, g i = ((∑ i ∈ s, f i : ℝ) : EReal) := by
  rw [Finset.sum_congr rfl hg, sum_coe]

/-! ## Finite maxima from the bottom element -/

/-- The maximum of finitely many coerced reals over a nonempty set, folded from the bottom element, is the
coerced maximum of the reals. -/
theorem fold_max_bot_coe {ι : Type*} (s : Finset ι) (H : s.Nonempty) (f : ι → ℝ) :
    s.fold max (⊥ : EReal) (fun i => ((f i : ℝ) : EReal)) = ((s.sup' H f : ℝ) : EReal) := by
  have h1 : s.fold max (⊥ : EReal) (fun i => ((f i : ℝ) : EReal)) = s.sup (fun i => ((f i : ℝ) : EReal)) := rfl
  rw [h1, ← Finset.sup'_eq_sup H]
  exact (Finset.comp_sup'_eq_sup'_comp H (fun r : ℝ => (r : EReal)) (fun x y => (max_coe x y).symm)).symm

/-- The same for extended reals each known to be a coerced real. -/
theorem fold_max_bot_of_eq {ι : Type*} (s : Finset ι) (H : s.Nonempty) (g : ι → EReal) (f : ι → ℝ)
    (hg : ∀ i, g i = ((f i : ℝ) : EReal)) :
    s.fold max (⊥ : EReal) g = ((s.sup' H f : ℝ) : EReal) := by
  have : g = fun i => ((f i : ℝ) : EReal) := funext hg
  rw [this, fold_max_bot_coe]

/-- The same with the float maximum as the folded operation. -/
theorem fold_maximumf_bot_of_eq {ι : Type*} (s : Finset ι) (H : s.Nonempty) (g : ι → EReal) (f : ι → ℝ)
    (hg : ∀ i, g i = ((f i : ℝ) : EReal)) :
    s.fold (FloatOps.maximumf (F := Ideal) (φ := φ)) (⊥ : EReal) g = ((s.sup' H f : ℝ) : EReal) :=
  fold_max_bot_of_eq s H g f hg

end Cert.LibIdealReal

end
-- ==== Proof.EdgeWeight.lean ====
/-
  The one law that joins the two programs: for a positive real bump A and non-negative real degrees,
  A · (1 / (√du · √di)) = (A / √du) / √di on the extended reals, zero degrees included (both sides are then +∞);
  and a finite table scaled to unit rows is finite.
-/
import proofs.«134471_j45853070852235_1_alg».proof.Proof.Spec
import proofs.«134471_j45853070852235_1_alg».proof.Proof.LibIdealReal

noncomputable section

namespace Cert.Spec

open Idealize.ShloMosaic Idealize.ShloMosaic.ValueIdx
open Cert.LibIdealReal

/-! ## The three words -/

/-- The floor word has sign 0, exponent 87 and fraction 834764: it denotes (2²³ + 834764) · 2⁻⁶³, a positive real. -/
private theorem ofBits_floor_pos : ∃ ε : ℝ, 0 < ε ∧ Ideal.ofBits .f32 floorW = (ε : EReal) := by
  refine ⟨9223372 * (2 : ℝ) ^ (-63 : ℤ), by positivity, ?_⟩
  show Ideal.ofBits .f32 0x2B8CBCCC#32 = _
  simp [Ideal.ofBits, Ideal.ieee, -EReal.coe_mul] <;> norm_num

/-- The word of four has sign 0, exponent 129 and fraction 0: it denotes 2²³ · 2⁻²¹ = 4. -/
private theorem ofBits_four_coe : Ideal.ofBits .f32 fourW = ((4 : ℝ) : EReal) := by
  show Ideal.ofBits .f32 0x40800000#32 = _
  simp [Ideal.ofBits, Ideal.ieee, -EReal.coe_mul] <;> norm_num

/-- The word of one denotes the real one. -/
private theorem ofBits_oneW_coe : Ideal.ofBits .f32 oneW = ((1 : ℝ) : EReal) := ofBits_one_coe

/-! ## A finite table scaled to unit rows is finite -/

theorem unitRowsAt_real (x : SX.Idx → EReal) (hx : ∀ i, ∃ r : ℝ, x i = (r : EReal)) (r : Fin 150000) (d : Fin 64) :
    ∃ v : ℝ, unitRowsAt x r d = (v : EReal) := by
  obtain ⟨ε, hε, hfl⟩ := ofBits_floor_pos
  choose f hf using hx
  -- the sum of squares of the row is a non-negative real
  have hsq : rowSq x r = ((∑ k : Fin 64, f (ix2 r k) * f (ix2 r k) : ℝ) : EReal) := by
    unfold rowSq
    exact sum_of_eq Finset.univ _ (fun k => f (ix2 r k) * f (ix2 r k)) (fun k _ => by rw [hf, mul_coe])
  have hnn : 0 ≤ ∑ k : Fin 64, f (ix2 r k) * f (ix2 r k) :=
    Finset.sum_nonneg (fun k _ => mul_self_nonneg _)
  -- so its root is a real, the larger of the root and the floor is a real at least the floor, hence not zero
  have hne : max (Real.sqrt (∑ k : Fin 64, f (ix2 r k) * f (ix2 r k))) ε ≠ 0 :=
    (lt_of_lt_of_le hε (le_max_right _ _)).ne'
  refine ⟨f (ix2 r d) / max (Real.sqrt (∑ k : Fin 64, f (ix2 r k) * f (ix2 r k))) ε, ?_⟩
  unfold unitRowsAt
  rw [hsq, Ideal.sqrt_coe, if_neg (not_lt.mpr hnn), hfl, max_coe, hf, div_coe _ hne]

/-! ## The bump of a real score is a positive real -/

/-- For a real score s, with σ = 1 / (1 + e⁻ˢ) strictly between 0 and 1, the bump is the real 4 σ (1 − σ) > 0. -/
private theorem bump_coe_pos (s : ℝ) : ∃ A : ℝ, 0 < A ∧ bump (s : EReal) = (A : EReal) := by
  have hden : 1 < 1 + Real.exp (-s) := by linarith [Real.exp_pos (-s)]
  have hσ0 : 0 < (1 + Real.exp (-s))⁻¹ := inv_pos.mpr (by linarith)
  have hσ1 : (1 + Real.exp (-s))⁻¹ < 1 := inv_lt_one_of_one_lt₀ hden
  refine ⟨4 * (1 + Real.exp (-s))⁻¹ * (1 - (1 + Real.exp (-s))⁻¹),
    mul_pos (mul_pos (by norm_num) hσ0) (sub_pos.mpr hσ1), ?_⟩
  unfold bump
  rw [Ideal.logistic_coe, ofBits_four_coe, ofBits_oneW_coe, mul_coe, sub_coe, mul_coe]

/-! ## One multiplication by a reciprocal against two divisions -/

/-- For a real A > 0 and reals a, b ≥ 0: A · (1 / (a · b)) = (A / a) / b on the extended reals. Off zero this is
real arithmetic; when a or b is zero both sides are +∞. -/
private theorem mul_div_one_mul_eq_div_div {A a b : ℝ} (hA : 0 < A) (ha : 0 ≤ a) (hb : 0 ≤ b) :
    (A : EReal) * Ideal.div 1 ((a : EReal) * (b : EReal)) =
      Ideal.div (Ideal.div (A : EReal) (a : EReal)) (b : EReal) := by
  have hA' : (0 : EReal) < (A : EReal) := by exact_mod_cast hA
  -- the reciprocal of zero is +∞, and a positive real times +∞ is +∞
  have hleft0 : (A : EReal) * Ideal.div 1 (0 : EReal) = ⊤ := by
    rw [Ideal.div, if_pos rfl, if_pos zero_lt_one, EReal.coe_mul_top_of_pos hA]
  rcases ha.eq_or_lt with ha0 | ha'
  · -- a = 0: the left is A · (1 / 0) = +∞; on the right A / 0 = +∞, and +∞ / b = +∞ for b ≥ 0
    subst ha0
    have hr1 : Ideal.div (A : EReal) ((0 : ℝ) : EReal) = ⊤ := by
      rw [Ideal.div, if_pos EReal.coe_zero, if_pos hA']
    rw [EReal.coe_zero, zero_mul, hleft0, ← EReal.coe_zero, hr1]
    rcases hb.eq_or_lt with hb0 | hb'
    · subst hb0
      rw [Ideal.div, if_pos EReal.coe_zero, if_pos EReal.zero_lt_top]
    · rw [Ideal.div_coe hb'.ne', EReal.top_mul_coe_of_pos (by positivity)]
  · rcases hb.eq_or_lt with hb0 | hb'
    · -- b = 0 < a: the left is again A · (1 / 0) = +∞; on the right A / a is a positive real, and that over 0 is +∞
      subst hb0
      have hq : (0 : EReal) < ((A / a : ℝ) : EReal) := by exact_mod_cast div_pos hA ha'
      rw [EReal.coe_zero, mul_zero, hleft0, ← EReal.coe_zero, div_coe A ha'.ne', Ideal.div,
        if_pos EReal.coe_zero, if_pos hq]
    · -- a, b > 0: real arithmetic
      rw [mul_coe, one_coe, div_coe 1 (mul_pos ha' hb').ne', div_coe A ha'.ne', div_coe _ hb'.ne', mul_coe]
      congr 1
      field_simp

/-! ## The kernel's weight is the reference's -/

theorem weightCols_eq_weight (zu zi : SE64.Idx → EReal) (b du di : SE.Idx → EReal) (sc : SE2.Idx → EReal) (e : Fin 2000000)
    (h0 : sc (ix2 e (0 : Fin 2)) = b (ix1 e))
    (h1 : sc (ix2 e (1 : Fin 2)) = Ideal.div (Ideal.ofBits .f32 oneW) (Ideal.sqrt (du (ix1 e)) * Ideal.sqrt (di (ix1 e))))
    (hzu : ∀ k : Fin 64, ∃ r : ℝ, zu (ix2 e k) = (r : EReal)) (hzi : ∀ k : Fin 64, ∃ r : ℝ, zi (ix2 e k) = (r : EReal))
    (hb : ∃ r : ℝ, b (ix1 e) = (r : EReal))
    (hdu : ∃ r : ℝ, 0 ≤ r ∧ du (ix1 e) = (r : EReal)) (hdi : ∃ r : ℝ, 0 ≤ r ∧ di (ix1 e) = (r : EReal)) :
    weightCols zu zi sc e = weight zu zi b du di e := by
  obtain ⟨rb, hrb⟩ := hb
  obtain ⟨p, hp, hdu'⟩ := hdu
  obtain ⟨q, hq, hdi'⟩ := hdi
  choose fu hfu using hzu
  choose fi hfi using hzi
  -- the score is a real
  have hin : inner zu zi e = ((∑ k : Fin 64, fu k * fi k : ℝ) : EReal) := by
    unfold inner
    exact sum_of_eq Finset.univ _ (fun k => fu k * fi k) (fun k _ => by rw [hfu, hfi, mul_coe])
  have hs : inner zu zi e - b (ix1 e) = (((∑ k : Fin 64, fu k * fi k) - rb : ℝ) : EReal) := by
    rw [hin, hrb, sub_coe]
  -- so the bump is a positive real
  obtain ⟨A, hA, hbump⟩ := bump_coe_pos ((∑ k : Fin 64, fu k * fi k) - rb)
  -- and the roots of the degrees are non-negative reals
  unfold weightCols weight
  rw [h0, h1, hs, hbump, hdu', hdi', Ideal.sqrt_coe, Ideal.sqrt_coe, if_neg (not_lt.mpr hp), if_neg (not_lt.mpr hq),
    ofBits_oneW_coe, ← one_coe]
  exact mul_div_one_mul_eq_div_div hA (Real.sqrt_nonneg p) (Real.sqrt_nonneg q)

end Cert.Spec

end
-- ==== Proof.RefStages.lean ====
/-
  The reference, stage by stage, is the specification: its scaled table, and its two message arrays over the gathered rows.
-/
import proofs.«134471_j45853070852235_1_alg».proof.Proof.Gen.ReferenceIdeal.Read
import proofs.«134471_j45853070852235_1_alg».proof.Proof.Spec
import proofs.«134471_j45853070852235_1_alg».proof.Proof.LibIdealReal
import Idealize.ShloMosaic.Lib.ValueIdx
import Idealize.ShloMosaic.PureOps.Ideal.Laws

set_option maxRecDepth 16384

noncomputable section

namespace Cert.ReferenceIdeal.Stages

open Cert.ReferenceIdeal Cert.ReferenceIdeal.Gen Cert.ReferenceIdeal.Read
open Idealize.ShloMosaic Idealize.ShloMosaic.TcCoe Idealize.ShloMosaic.ValueIdx

/-- The reference's row sum of squares is the specification's. -/
theorem rowSq_at (x0 : S150000x64.Idx → EReal) (r : Fin 150000) :
    ∑ k : Fin 64, val_main_call0_v0 (F := Ideal) x0 (idx_main_call0_v1 (ix1 r) k) = Spec.rowSq x0 r := by
  unfold Spec.rowSq
  refine Finset.sum_congr rfl fun k _ => ?_
  have hk : idx_main_call0_v1 (ix1 r) k = ix2 r k :=
    funext fun a => Fin.ext (by match a with | ⟨0, _⟩ => rfl | ⟨1, _⟩ => rfl)
  rw [hk, val_main_call0_v0_apply, Ideal.mulf_def]

theorem unit_rows (x0 : S150000x64.Idx → EReal) : val_main_v6 (F := Ideal) x0 = Spec.unitRows x0 := by
  funext i
  obtain ⟨r, d, rfl⟩ : ∃ (r : Fin 150000) (d : Fin 64), i = ix2 r d := ⟨i 0, i 1, eq_ix2 i⟩
  have hr : idx_main_call0_v2 (idx_main_v5 (ix2 r d)) = ix1 r :=
    funext fun a => Fin.ext (by match a with | ⟨0, _⟩ => rfl)
  rw [val_main_v6_apply, val_main_v5_apply, val_main_v4_apply, val_main_v2_apply, val_main_call0_v2_apply, hr,
    val_main_call0_v1_apply, val_main_call0_cst_apply, rowSq_at, val_main_v3_apply, val_main_cst_apply]
  simp only [Ideal.hostDivf_def, Ideal.maximumf_def, Ideal.hostUnary_sqrt_def, Ideal.ofBits_def, Ideal.ofBits_zero_f32,
    zero_add]
  rfl

/-- The reference's row sum of products over an edge's two gathered rows is the inner product. -/
theorem inner_at (x0 : S150000x64.Idx → EReal) (x4 x5 : IVec S2000000 32) (e : Fin 2000000) :
    ∑ k : Fin 64, val_main_v23 (F := Ideal) x0 x4 x5 (idx_main_v24 (ix1 e) k)
      = Spec.inner (val_main_v15 (F := Ideal) x0 x4) (val_main_v22 (F := Ideal) x0 x5) e := by
  unfold Spec.inner
  refine Finset.sum_congr rfl fun k _ => ?_
  have hk : idx_main_v24 (ix1 e) k = ix2 e k :=
    funext fun a => Fin.ext (by match a with | ⟨0, _⟩ => rfl | ⟨1, _⟩ => rfl)
  rw [hk, val_main_v23_apply, Ideal.mulf_def]

/-- The reference spells the logistic function out as 1 / (1 + exp (−s)), its two ones being the float word of one. -/
theorem logistic_spelt (s : EReal) :
    Ideal.div (Ideal.ofBits .f32 0x3F800000#32) (Ideal.ofBits .f32 0x3F800000#32 + Ideal.exp (-s)) = Ideal.logistic s := by
  rw [Cert.LibIdealReal.ofBits_one]; rfl

/-- The reference's weight vector at edge e is the specification's weight of e. -/
theorem weight_at (x0 : S150000x64.Idx → EReal) (x1 x2 : S100000.Idx → EReal) (x3 : S50000.Idx → EReal) (x4 x5 : IVec S2000000 32)
    (e : Fin 2000000) :
    val_main_v61 (F := Ideal) x0 x1 x2 x3 x4 x5 (ix1 e)
      = Spec.weight (val_main_v15 (F := Ideal) x0 x4) (val_main_v22 (F := Ideal) x0 x5)
          (val_main_v31 (F := Ideal) x1 x4) (val_main_v50 (F := Ideal) x2 x4) (val_main_v59 (F := Ideal) x3 x5) e := by
  rw [val_main_v61_apply, val_main_v52_apply, val_main_v60_apply, val_main_v51_apply, val_main_v43_apply,
    val_main_v40_apply, val_main_v42_apply, val_main_v41_apply, val_main_v39_apply, val_main_v38_apply,
    val_main_v37_apply, val_main_v36_apply, val_main_v35_apply, val_main_v34_apply, val_main_v33_apply,
    val_main_v32_apply, val_main_cst_6_apply, val_main_cst_7_apply, val_main_cst_8_apply, val_main_cst_9_apply,
    val_main_v24_apply, val_main_cst_3_apply, inner_at]
  simp only [Ideal.hostDivf_def, Ideal.mulf_def, Ideal.subf_def, Ideal.addf_def, Ideal.hostUnary_exp_def,
    Ideal.hostUnary_sqrt_def, Ideal.hostNegf_def, Ideal.negf_def, Ideal.ofBits_def, Ideal.ofBits_zero_f32, zero_add]
  rw [logistic_spelt]
  rfl

theorem user_msgs (x0 : S150000x64.Idx → EReal) (x1 x2 : S100000.Idx → EReal) (x3 : S50000.Idx → EReal) (x4 x5 : IVec S2000000 32) :
    val_main_v71 (F := Ideal) x0 x1 x2 x3 x4 x5
      = Spec.edgeMsg (val_main_v15 (F := Ideal) x0 x4) (val_main_v22 (F := Ideal) x0 x5) (val_main_v69 (F := Ideal) x0 x5)
          (val_main_v31 (F := Ideal) x1 x4) (val_main_v50 (F := Ideal) x2 x4) (val_main_v59 (F := Ideal) x3 x5) := by
  funext i
  obtain ⟨e, d, rfl⟩ : ∃ (e : Fin 2000000) (d : Fin 64), i = ix2 e d := ⟨i 0, i 1, eq_ix2 i⟩
  have he : idx_main_v62 (idx_main_v70 (ix2 e d)) = ix1 e :=
    funext fun a => Fin.ext (by match a with | ⟨0, _⟩ => rfl)
  rw [val_main_v71_apply, val_main_v70_apply, val_main_v62_apply, he, weight_at, Ideal.mulf_def]
  rfl

theorem item_msgs (x0 : S150000x64.Idx → EReal) (x1 x2 : S100000.Idx → EReal) (x3 : S50000.Idx → EReal) (x4 x5 : IVec S2000000 32) :
    val_main_v83 (F := Ideal) x0 x1 x2 x3 x4 x5
      = Spec.edgeMsg (val_main_v15 (F := Ideal) x0 x4) (val_main_v22 (F := Ideal) x0 x5) (val_main_v81 (F := Ideal) x0 x4)
          (val_main_v31 (F := Ideal) x1 x4) (val_main_v50 (F := Ideal) x2 x4) (val_main_v59 (F := Ideal) x3 x5) := by
  funext i
  obtain ⟨e, d, rfl⟩ : ∃ (e : Fin 2000000) (d : Fin 64), i = ix2 e d := ⟨i 0, i 1, eq_ix2 i⟩
  have he : idx_main_v62 (idx_main_v82 (ix2 e d)) = ix1 e :=
    funext fun a => Fin.ext (by match a with | ⟨0, _⟩ => rfl)
  rw [val_main_v83_apply, val_main_v82_apply, val_main_v62_apply, he, weight_at, Ideal.mulf_def]
  rfl

end Cert.ReferenceIdeal.Stages

end
-- ==== Proof.LibRowsTake.lean ====
/-
  A gather of whole rows read at an index.

  For an operand of shape `[N, C]` and start indices of shape `[R, 1]`, the gather whose dimension numbers collapse
  the leading axis (the one the start index names) and keep the trailing axis whole is what taking rows `x[idx, :]`
  lowers to: result element `(r, j)` is the operand at `(idx[r, 0] read signed and clamped into [0, N − 1], j)`.
-/
import Idealize.ShloMosaic.PureOps.ShapeOps
import Idealize.ShloMosaic.Lib.ValueIdx

namespace Cert.LibRowsTake

open Idealize.ShloMosaic Idealize.ShloMosaic.ValueIdx

variable {α : Type}

/-- Those dimension numbers; their conditions `wf` are decided on a program's literal shapes. -/
abbrev rowsTakeDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER READ AT `(r, j)`: the operand's row at the start index `idx[r, 0]`, read signed and clamped into
    `[0, N − 1]`, column `j`. -/
theorem gather_rowsTake_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (j : Fin C) :
    Host.gather (rowsTakeDims N R C wf) x idx (ix2 r j)
      = x (ix2 ⟨min (idx (ix2 r (0 : Fin 1))).toInt.toNat (N - 1), by omega⟩ j) := by
  have n10 : (1 : Fin 2) ∉ ([0] : List (Fin 2)) := by decide
  unfold Host.gather
  congr 1
  funext a
  refine Fin.ext ?_
  match a with
  | ⟨0, _⟩ =>
    -- the axis the start index names: collapsed, so only the clamped start, read at [r, 0]
    show (rowsTakeDims N R C wf).start (ix2 r j) idx 0 + (rowsTakeDims N R C wf).batchCoord (ix2 r j) 0
      + (rowsTakeDims N R C wf).offCoord (ix2 r j) 0 = min (idx (ix2 r (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsTakeDims N R C wf).startIndexMap from List.mem_singleton.mpr rfl)]
    have hsi : (rowsTakeDims N R C wf).siIdx (ix2 r j) ⟨List.idxOf (0 : Fin 2) (rowsTakeDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- the kept axis: not in the start index map and not batching, so only the result's trailing coordinate
    show (rowsTakeDims N R C wf).start (ix2 r j) idx 1 + (rowsTakeDims N R C wf).batchCoord (ix2 r j) 1
      + (rowsTakeDims N R C wf).offCoord (ix2 r j) 1 = j.val
    unfold GatherDims.start
    rw [dif_neg (show (1 : Fin 2) ∉ (rowsTakeDims N R C wf).startIndexMap from n10),
      GatherDims.batchCoord_eq_zero _ _ _ List.not_mem_nil]
    simp only [Nat.zero_add, Nat.add_zero]
    unfold GatherDims.offCoord
    rw [dif_pos ((GatherDims.mem_sKept _ _).mpr ⟨n10, List.not_mem_nil⟩)]
    rfl

end Cert.LibRowsTake
-- ==== Proof.LibVecTake.lean ====
/-
  A gather of single entries of a vector read at an index.

  For an operand of shape `[N]` and start indices of shape `[R, 1]`, the gather whose dimension numbers collapse
  the operand's only axis (the one the start index names) and keep no offset axis is what taking entries `x[idx]`
  lowers to: result element `r` is the operand at `idx[r, 0]` read signed and clamped into `[0, N − 1]`.
-/
import Idealize.ShloMosaic.PureOps.ShapeOps
import Idealize.ShloMosaic.Lib.ValueIdx

namespace Cert.LibVecTake

open Idealize.ShloMosaic Idealize.ShloMosaic.ValueIdx

variable {α : Type}

/-- Those dimension numbers; their conditions `wf` are decided on a program's literal shapes. -/
abbrev vecTakeDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER READ AT `r`: the operand's entry at the start index `idx[r, 0]`, read signed and clamped into
    `[0, N − 1]`. -/
theorem gather_vecTake_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecTakeDims N R wf) x idx (ix1 r)
      = x (ix1 ⟨min (idx (ix2 r (0 : Fin 1))).toInt.toNat (N - 1), by omega⟩) := by
  unfold Host.gather
  congr 1
  funext a
  refine Fin.ext ?_
  match a with
  | ⟨0, _⟩ =>
    -- the operand's one axis: named by the start index and collapsed, so only the clamped start, read at [r, 0]
    show (vecTakeDims N R wf).start (ix1 r) idx 0 + (vecTakeDims N R wf).batchCoord (ix1 r) 0
      + (vecTakeDims N R wf).offCoord (ix1 r) 0 = min (idx (ix2 r (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecTakeDims N R wf).startIndexMap from List.mem_singleton.mpr rfl)]
    have hsi : (vecTakeDims N R wf).siIdx (ix1 r) ⟨List.idxOf (0 : Fin 1) (vecTakeDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

end Cert.LibVecTake
-- ==== Proof.LibConcatCols.lean ====
/-
  Two arrays of one row count joined along their second axis, read at an index.

  For `u : [R, C₁]` and `p : [R, C₂]` the concatenation along axis 1 is the `[R, C₁ + C₂]` array whose row `r`
  is row `r` of `u` followed by row `r` of `p`: at `(r, k)` it reads `u (r, k)` when `k < C₁` and
  `p (r, k - C₁)` otherwise. `catRow` names that row as a function of the column, and `concatenate_cols_apply`
  says the library's `concatenate` of the two pieces reads it, for any sizes and element type.
-/
import Idealize.ShloMosaic.Lib.ValueIdx
import Idealize.ShloMosaic.Lib.Pipeline.Value

namespace Cert.LibConcatCols

open Idealize.ShloMosaic Idealize.ShloMosaic.ValueIdx

variable {α : Type}

/-- Row `r` of the two pieces laid side by side, as a function of the joined column `k : Fin C`. -/
def catRow {R C₁ C₂ C : ℕ} (hC : C = C₁ + C₂) (u : (⟨2, ![R, C₁]⟩ : Shape).Idx → α) (p : (⟨2, ![R, C₂]⟩ : Shape).Idx → α)
    (r : Fin R) (k : Fin C) : α :=
  if h : k.val < C₁ then u (ix2 r ⟨k.val, h⟩) else p (ix2 r ⟨k.val - C₁, by have := k.isLt; omega⟩)

/-- The concatenation along axis 1 of an `[R, C₁]` and an `[R, C₂]` array reads `catRow` at `(r, k)`. -/
theorem concatenate_cols_apply {R C₁ C₂ C : ℕ} (hC : C = C₁ + C₂) (u : (⟨2, ![R, C₁]⟩ : Shape).Idx → α)
    (p : (⟨2, ![R, C₂]⟩ : Shape).Idx → α)
    (h : Shape.Concatenates [(⟨2, ![R, C₁]⟩ : Shape), ⟨2, ![R, C₂]⟩] ⟨2, ![R, C]⟩ (1 : Fin 2)) (r : Fin R) (k : Fin C) :
    concatenate ⟨2, ![R, C]⟩ (1 : Fin 2) [⟨⟨2, ![R, C₁]⟩, u⟩, ⟨⟨2, ![R, C₂]⟩, p⟩] h (ix2 r k) = catRow hC u p r k := by
  unfold catRow
  split
  · rename_i hk
    refine concatenate_pair_apply_left (1 : Fin 2) u p h (ix2 r k) rfl (ix2 r ⟨k.val, hk⟩) ?_
    intro b
    match b with
    | ⟨0, _⟩ => rfl
    | ⟨1, _⟩ => rfl
  · rename_i hk
    refine concatenate_pair_apply_right (1 : Fin 2) u p h (ix2 r k) rfl rfl (ix2 r ⟨k.val - C₁, by have := k.isLt; omega⟩) ?_ ?_
    · intro b hb
      match b with
      | ⟨0, _⟩ => rfl
      | ⟨1, _⟩ => exact absurd rfl hb
    · show k.val - C₁ + C₁ = k.val
      omega

end Cert.LibConcatCols
-- ==== Proof.Entries.lean ====
/-
  Every gathered entry is an entry of the table it was gathered from, and the two-column array read column by column.
-/
import proofs.«134471_j45853070852235_1_alg».proof.Proof.HostTerms
import proofs.«134471_j45853070852235_1_alg».proof.Proof.LibRowsTake
import proofs.«134471_j45853070852235_1_alg».proof.Proof.LibVecTake
import proofs.«134471_j45853070852235_1_alg».proof.Proof.LibConcatCols
import Idealize.ShloMosaic.Lib.ValueIdx
import Idealize.ShloMosaic.Lib.Pipeline.Value

set_option maxRecDepth 16384

noncomputable section

namespace Cert.KernelIdeal.Named

open Cert.KernelIdeal Cert.KernelIdeal.Gen
open Idealize.ShloMosaic Idealize.ShloMosaic.TcCoe Idealize.ShloMosaic.ValueIdx

theorem userRows_entry (t : S150000x64.Idx → EReal) (u : IVec S2000000 32) (e : Fin 2000000) (k : Fin 64) :
    ∃ r : Fin 150000, userRows t u (ix2 e k) = t (ix2 r k) := by
  -- the gather reads the sliced table at the clamped word's row; the slice starts at row 0
  have hg := Cert.LibRowsTake.gather_rowsTake_apply (N := 100000) (R := 2000000) (C := 64) (by decide)
    gather_S100000x64_S2000000x1_S2000000x64_1_0_n_n_0_1_164.wf
    (extractStridedSlice S100000x64 ![0, 0] t slices_S150000x64_S100000x64_0_0) (userCol u) e k
  refine ⟨⟨min (userCol u (ix2 e (0 : Fin 1))).toInt.toNat (100000 - 1), by omega⟩, ?_⟩
  refine Eq.trans hg ?_
  exact extractStridedSlice_apply ![0, 0] t slices_S150000x64_S100000x64_0_0 _ _ (fun a => match a with
    | ⟨0, _⟩ => (Nat.zero_add _).symm
    | ⟨1, _⟩ => (Nat.zero_add _).symm)

theorem itemRows_entry (t : S150000x64.Idx → EReal) (i : IVec S2000000 32) (e : Fin 2000000) (k : Fin 64) :
    ∃ r : Fin 150000, itemRows t i (ix2 e k) = t (ix2 r k) := by
  -- the gather reads the sliced table at the clamped word's row; the slice starts at row 100000
  have hg := Cert.LibRowsTake.gather_rowsTake_apply (N := 50000) (R := 2000000) (C := 64) (by decide)
    gather_S50000x64_S2000000x1_S2000000x64_1_0_n_n_0_1_164.wf
    (extractStridedSlice S50000x64 ![100000, 0] t slices_S150000x64_S50000x64_100000_0) (itemCol i) e k
  refine ⟨⟨100000 + min (itemCol i (ix2 e (0 : Fin 1))).toInt.toNat (50000 - 1), by omega⟩, ?_⟩
  refine Eq.trans hg ?_
  exact extractStridedSlice_apply ![100000, 0] t slices_S150000x64_S50000x64_100000_0 _ _ (fun a => match a with
    | ⟨0, _⟩ => rfl
    | ⟨1, _⟩ => (Nat.zero_add _).symm)

theorem userVals_entry (v : S100000.Idx → EReal) (u : IVec S2000000 32) (e : Fin 2000000) :
    ∃ r : Fin 100000, userVals v u (ix1 e) = v (ix1 r) :=
  -- the gather reads the vector at the clamped word
  ⟨⟨min (userCol u (ix2 e (0 : Fin 1))).toInt.toNat (100000 - 1), by omega⟩,
    Cert.LibVecTake.gather_vecTake_apply (N := 100000) (R := 2000000) (by decide)
      gather_S100000_S2000000x1_S2000000_n_0_n_n_0_1_1.wf v (userCol u) e⟩

theorem itemVals_entry (v : S50000.Idx → EReal) (i : IVec S2000000 32) (e : Fin 2000000) :
    ∃ r : Fin 50000, itemVals v i (ix1 e) = v (ix1 r) :=
  -- the gather reads the vector at the clamped word
  ⟨⟨min (itemCol i (ix2 e (0 : Fin 1))).toInt.toNat (50000 - 1), by omega⟩,
    Cert.LibVecTake.gather_vecTake_apply (N := 50000) (R := 2000000) (by decide)
      gather_S50000_S2000000x1_S2000000_n_0_n_n_0_1_1.wf v (itemCol i) e⟩

/-- An edge vector made a one-column array and read at `(e, z)` is the vector at `e`. -/
private theorem col_apply {α : Type} (y : S2000000.Idx → α) (e : Fin 2000000) (z : Fin 1) :
    broadcastInDim S2000000x1 ![0] bcast_S2000000_S2000000x1_0 y (ix2 e z) = y (ix1 e) :=
  broadcastInDim_apply _ bcast_S2000000_S2000000x1_0 y (ix2 e z) (ix1 e) (fun a => match a with
    | ⟨0, _⟩ => by show e.val = if (2000000 : Nat) = 1 then 0 else e.val; rw [if_neg (by decide)])

theorem twoCols_bias (b du : S100000.Idx → EReal) (di : S50000.Idx → EReal) (u i : IVec S2000000 32) (e : Fin 2000000) :
    twoCols b du di u i (ix2 e (0 : Fin 2)) = userVals b u (ix1 e) := by
  -- column 0 of the joined array is the first piece's only column
  unfold twoCols
  refine (Cert.LibConcatCols.concatenate_cols_apply (R := 2000000) (C₁ := 1) (C₂ := 1) (C := 2) rfl _ _
    concatenates_S2000000x1_S2000000x1_S2000000x2_d1 e (0 : Fin 2)).trans ?_
  unfold Cert.LibConcatCols.catRow
  rw [dif_pos (show ((0 : Fin 2)).val < 1 by decide)]
  exact col_apply _ e _

theorem twoCols_recip (b du : S100000.Idx → EReal) (di : S50000.Idx → EReal) (u i : IVec S2000000 32) (e : Fin 2000000) :
    twoCols b du di u i (ix2 e (1 : Fin 2))
      = Ideal.div (Ideal.ofBits .f32 0x3F800000#32) (Ideal.sqrt (userVals du u (ix1 e)) * Ideal.sqrt (itemVals di i (ix1 e))) := by
  -- column 1 of the joined array is the second piece's only column
  unfold twoCols
  refine (Cert.LibConcatCols.concatenate_cols_apply (R := 2000000) (C₁ := 1) (C₂ := 1) (C := 2) rfl _ _
    concatenates_S2000000x1_S2000000x1_S2000000x2_d1 e (1 : Fin 2)).trans ?_
  unfold Cert.LibConcatCols.catRow
  rw [dif_neg (show ¬ ((1 : Fin 2)).val < 1 by decide)]
  refine (col_apply _ e _).trans ?_
  -- the quotient, the product and the two square roots are taken entry by entry, and the numerator is one constant
  unfold recipDeg
  rfl

end Cert.KernelIdeal.Named

end
-- ==== Proof.LibFinite.lean ====
/-
  "Every entry is finite", read back from the printed test, for an array of any shape.

  The precondition tests an array by `all (|x| < +inf)`: the absolute value entry by entry, compared with the
  pattern of plus infinity, and the one-bit answers folded by `and` into a single bit. If that bit is one, every
  entry's comparison came out one, so `max x (-x)` is below the top element: `x` is neither infinity, that is, `x`
  is a coerced real.
-/
import Idealize.ShloMosaic.PureOps.Ideal
import Idealize.ShloMosaic.Lib.ValueIdx
import Idealize.ShloMosaic.Lib.ReduceAll

noncomputable section

namespace Cert.LibFinite

open Idealize.ShloMosaic Idealize.ShloMosaic.ValueIdx

/-- The pattern `0x7F800000` denotes the top element. -/
theorem ofBits_inf : Ideal.ofBits .f32 0x7F800000#32 = (⊤ : EReal) := by
  simp [Ideal.ofBits, Ideal.ieee]

/-- An extended real whose absolute value compares below plus infinity is a coerced real. -/
theorem real_of_abs_lt_inf (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- The scalar shape has one index. -/
instance : Subsingleton (⟨0, ![]⟩ : Shape).Idx := ⟨fun a b => funext fun d => d.elim0⟩

/-- If the test `all (|x| < +inf)` of an array answers one, every entry of the array is a coerced real. -/
theorem real_of_all {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel)
    (e : Host.reduce IntOp.andi (cmpf .olt (Host.absf x) (broadcastInDim s ![] bc (constant ⟨0, ![]⟩ .f32 0x7F800000#32)))
      (constantI ⟨0, ![]⟩ 1 1#1) h hu ix0 = 1#1) (i : s.Idx) : ∃ r : ℝ, x i = (r : EReal) :=
  real_of_abs_lt_inf (x i) (Host.reduce_andi_all _ _ h hu ix0 e i)

end Cert.LibFinite

end
-- ==== Proof.LibNonneg.lean ====
/-
  "Every entry is non-negative", read back from the printed test, for an array of any shape.

  The precondition tests an array by `all (x ≥ 0)`: each entry compared with the pattern of zero, and the one-bit
  answers folded by `and` into a single bit. If that bit is one, every entry's comparison came out one, and on the
  linear order of the extended reals the comparison `x ≥ 0` answers one exactly when `0 ≤ x`.
-/
import Idealize.ShloMosaic.PureOps.Ideal
import Idealize.ShloMosaic.PureOps.Ideal.Laws
import Idealize.ShloMosaic.Lib.ValueIdx
import Idealize.ShloMosaic.Lib.ReduceAll

noncomputable section

namespace Cert.LibNonneg

open Idealize.ShloMosaic Idealize.ShloMosaic.ValueIdx

/-- An extended real that compares at or above the pattern of zero is non-negative. -/
theorem nonneg_of_ge_zero (x : EReal) (h : Ideal.cmp .oge x (Ideal.ofBits .f32 0x00000000#32) = 1#1) : 0 ≤ x := by
  rw [Ideal.ofBits_zero_f32] at h
  by_contra hn
  simp [Ideal.cmp, hn] at h

/-- The scalar shape has one index. -/
instance : Subsingleton (⟨0, ![]⟩ : Shape).Idx := ⟨fun a b => funext fun d => d.elim0⟩

/-- If the test `all (x ≥ 0)` of an array answers one, every entry of the array is non-negative. -/
theorem nonneg_of_all {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel)
    (e : Host.reduce IntOp.andi (cmpf .oge x (broadcastInDim s ![] bc (constant ⟨0, ![]⟩ .f32 0x00000000#32)))
      (constantI ⟨0, ![]⟩ 1 1#1) h hu ix0 = 1#1) (i : s.Idx) : 0 ≤ x i :=
  nonneg_of_ge_zero (x i) (Host.reduce_andi_all _ _ h hu ix0 e i)

end Cert.LibNonneg

end
-- ==== Proof.Domain.lean ====
/-
  What the precondition says of the inputs: the table, the bias and the degrees are finite, and the degrees non-negative.
-/
import proofs.«134471_j45853070852235_1_alg».proof.Defs
import proofs.«134471_j45853070852235_1_alg».proof.Proof.Gen.Pre_finite_inputs
import proofs.«134471_j45853070852235_1_alg».proof.Proof.LibFinite
import proofs.«134471_j45853070852235_1_alg».proof.Proof.LibNonneg
import Idealize.ShloMosaic.Lib.ReduceAll

set_option maxRecDepth 16384

noncomputable section

namespace Cert.KernelIdeal.Named

open Cert.KernelIdeal
open Idealize.ShloMosaic Idealize.ShloMosaic.TcCoe Idealize.ShloMosaic.ValueIdx Idealize.SL.Sem

variable (m : (ℓ : Loc nD τ sig) → Buf (Elt Ideal) ℓ)
  (h : Cert.Pre_KernelIdeal (hPre_finite_inputs := Cert.Pre_finite_inputs.Gen.facts) m)

include h

/-- The precondition's one bit is the conjunction of six tests, each a fold by `and` over one array: the table, the
    bias and the two degree vectors finite entry by entry, then the two degree vectors non-negative entry by entry.
    Here the six are read off the one bit, entry by entry. -/
private theorem pre_entries (c : Dev nD) :
    (∀ i : S150000x64.Idx, ∃ r : ℝ, m ((c : Thread nD τ).loc main_arg0) i = (r : EReal))
    ∧ (∀ i : S100000.Idx, ∃ r : ℝ, m ((c : Thread nD τ).loc main_arg1) i = (r : EReal))
    ∧ (∀ i : S100000.Idx, ∃ r : ℝ, m ((c : Thread nD τ).loc main_arg2) i = (r : EReal))
    ∧ (∀ i : S50000.Idx, ∃ r : ℝ, m ((c : Thread nD τ).loc main_arg3) i = (r : EReal))
    ∧ (∀ i : S100000.Idx, (0 : EReal) ≤ m ((c : Thread nD τ).loc main_arg2) i)
    ∧ (∀ i : S50000.Idx, (0 : EReal) ≤ m ((c : Thread nD τ).loc main_arg3) i) := by
  have h0 := congrFun (h c) ValueIdx.ix0
  dsimp only [Cert.Pre_finite_inputs.fn, Cert.Pre_finite_inputs.fn_part1] at h0
  -- the chain is nested to the left: peel the last conjunct off six times
  obtain ⟨h5, hdi⟩ := IntOp.andi_eq_one.1 h0
  obtain ⟨h4, hdu⟩ := IntOp.andi_eq_one.1 h5
  obtain ⟨h3, hfdi⟩ := IntOp.andi_eq_one.1 h4
  obtain ⟨h2, hfdu⟩ := IntOp.andi_eq_one.1 h3
  obtain ⟨hfx, hfb⟩ := IntOp.andi_eq_one.1 h2
  exact ⟨fun i => Cert.LibFinite.real_of_all _ _ _ _ hfx i,
    fun i => Cert.LibFinite.real_of_all _ _ _ _ hfb i,
    fun i => Cert.LibFinite.real_of_all _ _ _ _ hfdu i,
    fun i => Cert.LibFinite.real_of_all _ _ _ _ hfdi i,
    fun i => Cert.LibNonneg.nonneg_of_all _ _ _ _ hdu i,
    fun i => Cert.LibNonneg.nonneg_of_all _ _ _ _ hdi i⟩

theorem table_real (c : Dev nD) (i : S150000x64.Idx) : ∃ r : ℝ, m ((c : Thread nD τ).loc main_arg0) i = (r : EReal) :=
  (pre_entries m h c).1 i

theorem bias_real (c : Dev nD) (i : S100000.Idx) : ∃ r : ℝ, m ((c : Thread nD τ).loc main_arg1) i = (r : EReal) :=
  (pre_entries m h c).2.1 i

theorem userDeg_nonneg (c : Dev nD) (i : S100000.Idx) : ∃ r : ℝ, 0 ≤ r ∧ m ((c : Thread nD τ).loc main_arg2) i = (r : EReal) := by
  -- a finite entry is a coerced real, and the order of the reals is the order of their coercions
  obtain ⟨r, hr⟩ := (pre_entries m h c).2.2.1 i
  have hn := (pre_entries m h c).2.2.2.2.1 i
  rw [hr] at hn
  exact ⟨r, EReal.coe_nonneg.1 hn, hr⟩

theorem itemDeg_nonneg (c : Dev nD) (i : S50000.Idx) : ∃ r : ℝ, 0 ≤ r ∧ m ((c : Thread nD τ).loc main_arg3) i = (r : EReal) := by
  obtain ⟨r, hr⟩ := (pre_entries m h c).2.2.2.1 i
  have hn := (pre_entries m h c).2.2.2.2.2 i
  rw [hr] at hn
  exact ⟨r, EReal.coe_nonneg.1 hn, hr⟩

end Cert.KernelIdeal.Named

end
-- ==== Proof.Bridge.lean ====
/-
  The two programs end at one array.

  Both programs pick the same rows and entries with the same wrapped words, and both sum the messages back with the
  same unwrapped words; so their results agree as soon as their message arrays do. The kernel's message arrays are the
  second region's outputs over rows picked from the first region's output; the first region's output is the table
  scaled to unit rows, which is what the reference computes on the host; and an edge's weight, taken by the kernel
  as its bump times a reciprocal and by the reference as its bump divided twice, is one extended real because the
  scaled rows and the bias are finite (the bump is then a positive real) and the degrees are non-negative reals.
-/
import proofs.«134471_j45853070852235_1_alg».proof.Defs
import proofs.«134471_j45853070852235_1_alg».proof.Proof.KernelRun
import proofs.«134471_j45853070852235_1_alg».proof.Proof.KernelHost
import proofs.«134471_j45853070852235_1_alg».proof.Proof.NormalizeRegion
import proofs.«134471_j45853070852235_1_alg».proof.Proof.MessageRegion
import proofs.«134471_j45853070852235_1_alg».proof.Proof.EdgeWeight
import proofs.«134471_j45853070852235_1_alg».proof.Proof.RefStages
import proofs.«134471_j45853070852235_1_alg».proof.Proof.Entries
import proofs.«134471_j45853070852235_1_alg».proof.Proof.Domain

set_option maxRecDepth 16384

noncomputable section

namespace Cert.Proof.Bridge

open Idealize.ShloMosaic Idealize.ShloMosaic.TcCoe Idealize.ShloMosaic.ValueIdx Idealize.SL.Sem
open Cert.KernelIdeal.Named
open Cert.ReferenceIdeal.Read

/-! ## The reference's row and entry picks, and its summing back, are the kernel's -/

section SameOperations

variable (t : Cert.KernelIdeal.S150000x64.Idx → EReal) (bu : Cert.KernelIdeal.S100000.Idx → EReal)
  (bi : Cert.KernelIdeal.S50000.Idx → EReal) (u i : IVec Cert.KernelIdeal.S2000000 32)

theorem ref_zu : val_main_v15 (F := Ideal) t u = userRows (val_main_v6 (F := Ideal) t) u := by
  unfold val_main_v15 val_main_v7 val_main_v14 val_main_v13 val_main_v10 val_main_v9 val_main_c val_main_v12 val_main_v11
    val_main_c_0 userRows userCol
  rfl

theorem ref_zi : val_main_v22 (F := Ideal) t i = itemRows (val_main_v6 (F := Ideal) t) i := by
  unfold val_main_v22 val_main_v8 val_main_v21 val_main_v20 val_main_v17 val_main_v16 val_main_c_1 val_main_v19 val_main_v18
    val_main_c_2 itemRows itemCol
  rfl

theorem ref_xi : val_main_v69 (F := Ideal) t i = itemRows t i := by
  unfold val_main_v69 val_main_v1 val_main_v68 val_main_v67 val_main_v64 val_main_v63 val_main_c_14 val_main_v66 val_main_v65
    val_main_c_15 itemRows itemCol
  rfl

theorem ref_xu : val_main_v81 (F := Ideal) t u = userRows t u := by
  unfold val_main_v81 val_main_v0 val_main_v80 val_main_v79 val_main_v76 val_main_v75 val_main_c_17 val_main_v78 val_main_v77
    val_main_c_18 userRows userCol
  rfl

theorem ref_bias : val_main_v31 (F := Ideal) bu u = userVals bu u := by
  unfold val_main_v31 val_main_v30 val_main_v29 val_main_v26 val_main_v25 val_main_c_4 val_main_v28 val_main_v27
    val_main_c_5 userVals userCol
  rfl

theorem ref_du : val_main_v50 (F := Ideal) bu u = userVals bu u := by
  unfold val_main_v50 val_main_v49 val_main_v48 val_main_v45 val_main_v44 val_main_c_10 val_main_v47 val_main_v46
    val_main_c_11 userVals userCol
  rfl

theorem ref_di : val_main_v59 (F := Ideal) bi i = itemVals bi i := by
  unfold val_main_v59 val_main_v58 val_main_v57 val_main_v54 val_main_v53 val_main_c_12 val_main_v56 val_main_v55
    val_main_c_13 itemVals itemCol
  rfl

theorem ref_sum (b du : Cert.KernelIdeal.S100000.Idx → EReal) (di : Cert.KernelIdeal.S50000.Idx → EReal) :
    val_main_v87 (F := Ideal) t b du di u i
      = sumBack u i (val_main_v71 (F := Ideal) t b du di u i) (val_main_v83 (F := Ideal) t b du di u i) := by
  unfold val_main_v87 val_main_v74 val_main_v72 val_main_cst_16 val_main_v73 val_main_v86 val_main_v84 val_main_cst_19
    val_main_v85 sumBack
  rfl

end SameOperations

/-! ## The messages from the two-column array are the messages from the bias and the degrees -/

/-- Over a finite table, a finite bias and non-negative finite degrees: the kernel's weight (bump times the handed
    reciprocal) is the reference's (bump divided by each square root), edge by edge, so the message arrays agree,
    whichever rows `xs` the weights multiply. -/
theorem msgs_eq (x : Cert.KernelIdeal.S150000x64.Idx → EReal) (xs : Cert.KernelIdeal.S2000000x64.Idx → EReal)
    (b du : Cert.KernelIdeal.S100000.Idx → EReal) (di : Cert.KernelIdeal.S50000.Idx → EReal)
    (u i : IVec Cert.KernelIdeal.S2000000 32)
    (hx : ∀ j, ∃ r : ℝ, x j = (r : EReal)) (hb : ∀ j, ∃ r : ℝ, b j = (r : EReal))
    (hdu : ∀ j, ∃ r : ℝ, 0 ≤ r ∧ du j = (r : EReal)) (hdi : ∀ j, ∃ r : ℝ, 0 ≤ r ∧ di j = (r : EReal)) :
    Spec.edgeMsgCols (userRows (Spec.unitRows x) u) (itemRows (Spec.unitRows x) i) xs (twoCols b du di u i)
      = Spec.edgeMsg (userRows (Spec.unitRows x) u) (itemRows (Spec.unitRows x) i) xs (userVals b u) (userVals du u)
          (itemVals di i) := by
  funext j
  obtain ⟨e, d, rfl⟩ : ∃ (e : Fin 2000000) (d : Fin 64), j = ix2 e d := ⟨j 0, j 1, eq_ix2 j⟩
  show Spec.weightCols _ _ _ e * xs (ix2 e d) = Spec.weight _ _ _ _ _ e * xs (ix2 e d)
  refine congrArg (· * xs (ix2 e d)) ?_
  refine Spec.weightCols_eq_weight _ _ _ _ _ _ e (twoCols_bias b du di u i e) (twoCols_recip b du di u i e) ?_ ?_ ?_ ?_ ?_
  · intro k
    obtain ⟨r, hr⟩ := userRows_entry (Spec.unitRows x) u e k
    rw [hr]
    exact Spec.unitRowsAt_real x hx r k
  · intro k
    obtain ⟨r, hr⟩ := itemRows_entry (Spec.unitRows x) i e k
    rw [hr]
    exact Spec.unitRowsAt_real x hx r k
  · obtain ⟨r, hr⟩ := userVals_entry b u e
    rw [hr]
    exact hb _
  · obtain ⟨r, hr⟩ := userVals_entry du u e
    rw [hr]
    exact hdu _
  · obtain ⟨r, hr⟩ := itemVals_entry di i e
    rw [hr]
    exact hdi _

/-! ## The kernel's last contents are the reference's last stage -/

section Value

open Cert.KernelIdeal Cert.KernelIdeal.Gen

variable (m : (ℓ : Loc nD τ sig) → Buf (Elt Ideal) ℓ) (ρ : Dev nD → PrngReg)
  (hpre : Cert.Pre_KernelIdeal (hPre_finite_inputs := Cert.Pre_finite_inputs.Gen.facts) m)

/-- The first region's array is the launch table scaled to unit rows. -/
theorem unitTable_eq (c : Dev nD) : unitTable m ρ c = Spec.unitRows (m ((c : Thread nD τ).loc main_arg0)) := by
  unfold unitTable
  exact unit_rows_array (V0 m ρ) c

include hpre in
/-- The result buffer at the end of the kernel's run is the reference's last stage of the launch arrays. -/
theorem value_eq (c : Dev nD) :
    W4 (F := Ideal) m ρ c (Proc.devRef .tc main_v69)
      = val_main_v87 (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have hx := table_real m hpre c
  have hb := bias_real m hpre c
  have hdu := userDeg_nonneg m hpre c
  have hdi := itemDeg_nonneg m hpre c
  rw [exit_result m ρ c, ref_sum]
  have hU : userMsgs m ρ c = val_main_v71 (F := Ideal) (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
    unfold userMsgs
    rw [user_msgs_array (V2 m ρ) c, entry_zu m ρ c, entry_zi m ρ c, entry_xi m ρ c, entry_sc m ρ c, unitTable_eq m ρ c,
      Cert.ReferenceIdeal.Stages.user_msgs, ref_zu, ref_zi, ref_xi, ref_bias, ref_du, ref_di,
      Cert.ReferenceIdeal.Stages.unit_rows]
    exact msgs_eq _ _ _ _ _ _ _ hx hb hdu hdi
  have hI : itemMsgs m ρ c = val_main_v83 (F := Ideal) (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
    unfold itemMsgs
    rw [item_msgs_array (V2 m ρ) c, entry_zu m ρ c, entry_zi m ρ c, entry_xu m ρ c, entry_sc m ρ c, unitTable_eq m ρ c,
      Cert.ReferenceIdeal.Stages.item_msgs, ref_zu, ref_zi, ref_xu, ref_bias, ref_du, ref_di,
      Cert.ReferenceIdeal.Stages.unit_rows]
    exact msgs_eq _ _ _ _ _ _ _ hx hb hdu hdi
  rw [hU, hI]

end Value

end Cert.Proof.Bridge

end
-- ==== Proof.lean ====
/-
  The certificate: a kernel of two regions against its reference, equal over the extended reals.

  The kernel scales a table of 150000 rows to unit rows in a first region, picks rows and entries for two million edges
  on the host, weighs each edge in a second region and sums the weighted rows back on the host. The reference does all of
  it on the host. Under the precondition (every float input finite, the two degree vectors non-negative) both end at one
  array: the picks and the summing back are the same operations on both sides, the first region's output is the host's
  scaled table, and an edge's weight — the bump 4σ(1−σ) of its score times the reciprocal of the product of the degrees'
  square roots in the kernel, the bump divided by the two square roots in turn in the reference — is one extended real,
  since the bump is a positive real and the square roots are non-negative reals (when one is zero both sides are +∞).
  The three frames are the generated ones (the reference's is its generated run with the result dropped), and the kernel
  is its own idealization (no rewrite was made).
-/
import proofs.«134471_j45853070852235_1_alg».proof.Defs
import proofs.«134471_j45853070852235_1_alg».proof.Proof.Gen.Kernel
import proofs.«134471_j45853070852235_1_alg».proof.Proof.Gen.Kernel.Skeleton
import proofs.«134471_j45853070852235_1_alg».proof.Proof.Gen.Kernel.Launch
import proofs.«134471_j45853070852235_1_alg».proof.Proof.Gen.Kernel.Points
import proofs.«134471_j45853070852235_1_alg».proof.Proof.Gen.Kernel.Frame
import proofs.«134471_j45853070852235_1_alg».proof.Proof.Gen.KernelIdeal
import proofs.«134471_j45853070852235_1_alg».proof.Proof.Gen.KernelIdeal.Skeleton
import proofs.«134471_j45853070852235_1_alg».proof.Proof.Gen.KernelIdeal.Launch
import proofs.«134471_j45853070852235_1_alg».proof.Proof.Gen.KernelIdeal.Points
import proofs.«134471_j45853070852235_1_alg».proof.Proof.Gen.KernelIdeal.Frame
import proofs.«134471_j45853070852235_1_alg».proof.Proof.Gen.ReferenceIdeal
import proofs.«134471_j45853070852235_1_alg».proof.Proof.Gen.ReferenceIdeal.Run
import proofs.«134471_j45853070852235_1_alg».proof.Proof.Gen.ReferenceIdeal.Read
import proofs.«134471_j45853070852235_1_alg».proof.Proof.Gen.Pre_finite_inputs
import proofs.«134471_j45853070852235_1_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the reference's last stage of the launch arrays. -/
theorem algebraic : Cert.algebraic_KernelIdeal_ReferenceIdeal := by
  intro m ρ m' ρ' hpre hagree
  refine ⟨fun c => Cert.KernelIdeal.Gen.W4 (F := Ideal) m ρ c (Proc.devRef .tc Cert.KernelIdeal.main_v69),
    Cert.KernelIdeal.Named.run_named (F := Ideal) m ρ, ?_⟩
  refine (θ_run Cert.ReferenceIdeal.defs _ _).mono (fun r h c => ⟨?_, (h c).2⟩)
    (Cert.ReferenceIdeal.Value.run (F := Ideal) m' ρ')
  rw [(h c).1, Cert.ReferenceIdeal.Read.val_main_v87_eq, (hagree c).1, (hagree c).2.1, (hagree c).2.2.1,
    (hagree c).2.2.2.1, (hagree c).2.2.2.2.1, (hagree c).2.2.2.2.2]
  exact (Cert.Proof.Bridge.value_eq m ρ hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
